-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1250000 : Shape := ⟨2, ![2, 1250000]⟩
abbrev S1250000 : Shape := ⟨1, ![1250000]⟩
abbrev S28x64 : Shape := ⟨2, ![28, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S28x64 : S_.BroadcastsInDim S28x64 (![] : Fin 0 → Fin S28x64.rank)
  reducesTo_S28x64_S_d0_1 : S28x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg0 : IVec S100000 32) (main_v33 : IVec S_ 1) : IVec S_ 1 :=
  let main_c_12 : IVec S_ 32 := constantI S_ 32 0#32
  let main_v34 : IVec S100000 32 := broadcastInDim S100000 ![] bcast_S_S100000 main_c_12
  let main_v35 : IVec S100000 1 := cmpi .sge main_arg0 main_v34
  let main_c_13 : IVec S_ 32 := constantI S_ 32 28#32
  let main_v36 : IVec S100000 32 := broadcastInDim S100000 ![] bcast_S_S100000 main_c_13
  let main_v37 : IVec S100000 1 := cmpi .slt main_arg0 main_v36
  let main_v38 : IVec S100000 1 := andi main_v35 main_v37
  let main_c_14 : IVec S_ 1 := constantI S_ 1 1#1
  let main_v39 : IVec S_ 1 := (fun x v => Host.reduce IntOp.andi x v reducesTo_S100000_S_d0 h_S_) main_v38 main_c_14
  let main_v40 : IVec S_ 1 := andi main_v33 main_v39
  main_v40

def fn_part1 {F : FTy → Type} [FloatOps F] (main_arg0 : IVec S100000 32) (main_arg8 : FVec F S64 .f32) (main_arg9 : FVec F S64x1 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg9
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg10
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg0 main_v33

def fn {F : FTy → Type} [FloatOps F] (main_arg0 : IVec S100000 32) (main_arg1 : IVec S2x1250000 32) (main_arg2 : IVec S1250000 32) (main_arg3 : IVec S100000 32) (main_arg4 : FVec F S28x64 .f32) (main_arg5 : FVec F S64x64 .f32) (main_arg6 : FVec F S64 .f32) (main_arg7 : FVec F S64x64 .f32) (main_arg8 : FVec F S64 .f32) (main_arg9 : FVec F S64x1 .f32) (main_arg10 : FVec F S1 .f32) : IVec S_ 1 :=
  let main_v0 : FVec F S28x64 .f32 := Host.absf main_arg4
  let main_cst : FVec F S_ .f32 := constant S_ .f32 0x7F800000#32
  let main_v1 : FVec F S28x64 .f32 := broadcastInDim S28x64 ![] bcast_S_S28x64 main_cst
  let main_v2 : IVec S28x64 1 := cmpf .olt main_v0 main_v1
  let main_c : IVec S_ 1 := constantI S_ 1 1#1
  let main_v3 : IVec S_ 1 := (fun x v => Host.reduce IntOp.andi x v reducesTo_S28x64_S_d0_1 h_S_) main_v2 main_c
  let main_v4 : FVec F S64x64 .f32 := Host.absf main_arg5
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg6
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg7
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg0 main_arg8 main_arg9 main_arg10 main_v13 main_v16
-- ==== Kernel.lean ====
abbrev S100000 : Shape := ⟨1, ![100000]⟩
abbrev S2x1250000 : Shape := ⟨2, ![2, 1250000]⟩
abbrev S1250000 : Shape := ⟨1, ![1250000]⟩
abbrev S28x64 : Shape := ⟨2, ![28, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1250000 : Shape := ⟨2, ![1, 1250000]⟩
abbrev S1350000 : Shape := ⟨1, ![1350000]⟩
abbrev S_ : Shape := ⟨0, ![]⟩
abbrev S1350000x1 : Shape := ⟨2, ![1350000, 1]⟩
abbrev S100000x1 : Shape := ⟨2, ![100000, 1]⟩
abbrev S100000x64 : Shape := ⟨2, ![100000, 64]⟩
abbrev S5000x1 : Shape := ⟨2, ![5000, 1]⟩
abbrev S5000x64 : Shape := ⟨2, ![5000, 64]⟩
abbrev S5000x28 : Shape := ⟨2, ![5000, 28]⟩
abbrev S1350000x64 : Shape := ⟨2, ![1350000, 64]⟩
abbrev S1x64 : Shape := ⟨2, ![1, 64]⟩
abbrev S1x1 : Shape := ⟨2, ![1, 1]⟩
abbrev S2048 : Shape := ⟨1, ![2048]⟩

abbrev nBuf : Space → Nat
  | .hbm => 71
  | .vmem => 24
  | .smem => 0
  | _ => 0

abbrev bufTy : (tb : Table) → Fin (tcTables nBuf tb) → BufTy
  | .hbm, ⟨0, _⟩ => ⟨S100000, .i32⟩
  | .hbm, ⟨1, _⟩ => ⟨S2x1250000, .i32⟩
  | .hbm, ⟨2, _⟩ => ⟨S1250000, .i32⟩
  | .hbm, ⟨3, _⟩ => ⟨S100000, .i32⟩
  | .hbm, ⟨4, _⟩ => ⟨S28x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S100000, .i32⟩
  | .hbm, ⟨12, _⟩ => ⟨S1x1250000, .i32⟩
  | .hbm, ⟨13, _⟩ => ⟨S1250000, .i32⟩
  | .hbm, ⟨14, _⟩ => ⟨S1350000, .i32⟩
  | .hbm, ⟨15, _⟩ => ⟨S1x1250000, .i32⟩
  | .hbm, ⟨16, _⟩ => ⟨S1250000, .i32⟩
  | .hbm, ⟨17, _⟩ => ⟨S1350000, .i32⟩
  | .hbm, ⟨18, _⟩ => ⟨S_, .f32⟩
  | .hbm, ⟨19, _⟩ => ⟨S1350000, .f32⟩
  | .hbm, ⟨20, _⟩ => ⟨S_, .f32⟩
  | .hbm, ⟨21, _⟩ => ⟨S100000, .f32⟩
  | .hbm, ⟨22, _⟩ => ⟨S1350000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S28x64, .f32⟩
  | .hbm, ⟨34, _⟩ => ⟨S100000x1, .i32⟩
  | .hbm, ⟨35, _⟩ => ⟨S100000x64, .bf16⟩
  | .hbm, ⟨36, _⟩ => ⟨S_, .i32⟩
  | .hbm, ⟨37, _⟩ => ⟨S1350000, .i32⟩
  | .hbm, ⟨38, _⟩ => ⟨S1350000, .i1⟩
  | .hbm, ⟨39, _⟩ => ⟨S_, .i32⟩
  | .hbm, ⟨40, _⟩ => ⟨S1350000, .i32⟩
  | .hbm, ⟨41, _⟩ => ⟨S1350000, .i32⟩
  | .hbm, ⟨42, _⟩ => ⟨S1350000, .i32⟩
  | .hbm, ⟨43, _⟩ => ⟨S1350000x1, .i32⟩
  | .hbm, ⟨44, _⟩ => ⟨S1350000x64, .bf16⟩
  | .hbm, ⟨45, _⟩ => ⟨S1350000x64, .f32⟩
  | .hbm, ⟨46, _⟩ => ⟨S_, .f32⟩
  | .hbm, ⟨47, _⟩ => ⟨S100000x64, .f32⟩
  | .hbm, ⟨48, _⟩ => ⟨S1350000x1, .i32⟩
  | .hbm, ⟨49, _⟩ => ⟨S100000x64, .f32⟩
  | .hbm, ⟨50, _⟩ => ⟨S100000x64, .bf16⟩
  | .hbm, ⟨51, _⟩ => ⟨S_, .i32⟩
  | .hbm, ⟨52, _⟩ => ⟨S1350000, .i32⟩
  | .hbm, ⟨53, _⟩ => ⟨S1350000, .i1⟩
  | .hbm, ⟨54, _⟩ => ⟨S_, .i32⟩
  | .hbm, ⟨55, _⟩ => ⟨S1350000, .i32⟩
  | .hbm, ⟨56, _⟩ => ⟨S1350000, .i32⟩
  | .hbm, ⟨57, _⟩ => ⟨S1350000, .i32⟩
  | .hbm, ⟨58, _⟩ => ⟨S1350000x1, .i32⟩
  | .hbm, ⟨59, _⟩ => ⟨S1350000x64, .bf16⟩
  | .hbm, ⟨60, _⟩ => ⟨S1350000x64, .f32⟩
  | .hbm, ⟨61, _⟩ => ⟨S_, .f32⟩
  | .hbm, ⟨62, _⟩ => ⟨S100000x64, .f32⟩
  | .hbm, ⟨63, _⟩ => ⟨S1350000x1, .i32⟩
  | .hbm, ⟨64, _⟩ => ⟨S100000x64, .f32⟩
  | .hbm, ⟨65, _⟩ => ⟨S100000x1, .f32⟩
  | .hbm, ⟨66, _⟩ => ⟨S100000, .f32⟩
  | .hbm, ⟨67, _⟩ => ⟨S_, .f32⟩
  | .hbm, ⟨68, _⟩ => ⟨S2048, .f32⟩
  | .hbm, ⟨69, _⟩ => ⟨S100000x1, .i32⟩
  | .hbm, ⟨70, _⟩ => ⟨S2048, .f32⟩
  | .local _ .vmem, ⟨0, _⟩ => ⟨S5000x1, .i32⟩
  | .local _ .vmem, ⟨1, _⟩ => ⟨S5000x1, .i32⟩
  | .local _ .vmem, ⟨2, _⟩ => ⟨S28x64, .f32⟩
  | .local _ .vmem, ⟨3, _⟩ => ⟨S5000x1, .f32⟩
  | .local _ .vmem, ⟨4, _⟩ => ⟨S5000x1, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S64, .f32⟩
  | .local _ .vmem, ⟨12, _⟩ => ⟨S64x64, .f32⟩
  | .local _ .vmem, ⟨13, _⟩ => ⟨S5000x64, .bf16⟩
  | .local _ .vmem, ⟨14, _⟩ => ⟨S5000x64, .bf16⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S64, .f32⟩
  | .local _ .vmem, ⟨20, _⟩ => ⟨S64x1, .f32⟩
  | .local _ .vmem, ⟨21, _⟩ => ⟨S1, .f32⟩
  | .local _ .vmem, ⟨22, _⟩ => ⟨S5000x1, .f32⟩
  | .local _ .vmem, ⟨23, _⟩ => ⟨S5000x1, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S28x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x28_d1_w32 : S5000x28.Iotas .tc 32 [1]
  broadcasts_S5000x1_S5000x28 : S5000x1.Broadcasts S5000x28
  natLt_1_32 : 1 < 32
  bitsLt_bf16_f32 : FTy.bits .bf16 < FTy.bits .f32
  inb_S28x64_S28x64_0_0 : ∀ a, (![0, 0] : Fin 2 → Nat) a + S28x64.size a ≤ S28x64.size a
  h_S28x64 : 0 < S28x64.numel
  shapeCasts_S28x64_S28x64 : S28x64.ShapeCasts S28x64
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  shapeCasts_S100000x1_S100000 : S100000x1.ShapeCasts S100000
  bcast_S_S2048 : S_.BroadcastsInDim S2048 (![] : Fin 0 → Fin S2048.rank)
  bcast_S100000_S100000x1_0 : S100000.BroadcastsInDim S100000x1 (![0] : Fin 1 → Fin S100000x1.rank)
  scatter_S100000_S1350000x1_S1350000_n_0_0_1_wf : ScatterDims.WF S100000 S1350000x1 S1350000 [] [0] [0] 1
  dot_S28x64_S64x64_S28x64_1_0_0_1_n_n_wf : DotDims.WF S28x64 S64x64 S28x64 [1] [0] [0] [1] [] []
  dot_S5000x28_S28x64_S5000x64_1_0_0_1_n_n_wf : DotDims.WF S5000x28 S28x64 S5000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  scatter_S2048_S100000x1_S100000_n_0_0_1_wf : ScatterDims.WF S2048 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .i32 = 32 ∨ (Rect.block (s := S100000x1) S5000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S28x64.size a ≤ S28x64.size a
  hwx0_1 : ∀ i : grid0.Coords, EltTy.bits .f32 = 32 ∨ (Rect.block (s := S28x64) S28x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .bf16 = 32 ∨ (Rect.block (s := S100000x64) S5000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .f32 = 32 ∨ (Rect.block (s := S64x1) S64x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1.size a ≤ S1.size a
  hwx2_4 : ∀ i : grid2.Coords, EltTy.bits .f32 = 32 ∨ (Rect.block (s := S1) S1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S100000x1.size a
  hwx2_5 : ∀ i : grid2.Coords, EltTy.bits .f32 = 32 ∨ (Rect.block (s := S100000x1) S5000x1.size (cc2_transform_5 i) (hinb2_5 i)).WholeWords (EltTy.packing .f32)

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def dot_S28x64_S64x64_S28x64_1_0_0_1_n_n : DotDims S28x64 S64x64 S28x64 where
  lhsContracting := [1]
  rhsContracting := [0]
  lhsNonContracting := [0]
  rhsNonContracting := [1]
  lhsBatch := []
  rhsBatch := []
  wf := dot_S28x64_S64x64_S28x64_1_0_0_1_n_n_wf
def dot_S5000x28_S28x64_S5000x64_1_0_0_1_n_n : DotDims S5000x28 S28x64 S5000x64 where
  lhsContracting := [1]
  rhsContracting := [0]
  lhsNonContracting := [0]
  rhsNonContracting := [1]
  lhsBatch := []
  rhsBatch := []
  wf := dot_S5000x28_S28x64_S5000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf

abbrev win0_0 : Pipeline.Window sig grid0 :=
  Pipeline.Window.ofSpec (Memref.whole main_v17) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S28x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S5000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000 : Shape := ⟨1, ![100000]⟩
abbrev S2x1250000 : Shape := ⟨2, ![2, 1250000]⟩
abbrev S1250000 : Shape := ⟨1, ![1250000]⟩
abbrev S28x64 : Shape := ⟨2, ![28, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1250000 : Shape := ⟨2, ![1, 1250000]⟩
abbrev S1350000 : Shape := ⟨1, ![1350000]⟩
abbrev S_ : Shape := ⟨0, ![]⟩
abbrev S1350000x1 : Shape := ⟨2, ![1350000, 1]⟩
abbrev S100000x1 : Shape := ⟨2, ![100000, 1]⟩
abbrev S100000x64 : Shape := ⟨2, ![100000, 64]⟩
abbrev S1350000x64 : Shape := ⟨2, ![1350000, 64]⟩
abbrev S1x64 : Shape := ⟨2, ![1, 64]⟩
abbrev S1x1 : Shape := ⟨2, ![1, 1]⟩
abbrev S2048x1 : Shape := ⟨2, ![2048, 1]⟩
abbrev S2048 : Shape := ⟨1, ![2048]⟩

abbrev nBuf : Space → Nat
  | .hbm => 112
  | .vmem => 0
  | .smem => 0
  | _ => 0

abbrev bufTy : (tb : Table) → Fin (tcTables nBuf tb) → BufTy
  | .hbm, ⟨0, _⟩ => ⟨S100000, .i32⟩
  | .hbm, ⟨1, _⟩ => ⟨S2x1250000, .i32⟩
  | .hbm, ⟨2, _⟩ => ⟨S1250000, .i32⟩
  | .hbm, ⟨3, _⟩ => ⟨S100000, .i32⟩
  | .hbm, ⟨4, _⟩ => ⟨S28x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S100000, .i32⟩
  | .hbm, ⟨12, _⟩ => ⟨S1x1250000, .i32⟩
  | .hbm, ⟨13, _⟩ => ⟨S1250000, .i32⟩
  | .hbm, ⟨14, _⟩ => ⟨S1350000, .i32⟩
  | .hbm, ⟨15, _⟩ => ⟨S1x1250000, .i32⟩
  | .hbm, ⟨16, _⟩ => ⟨S1250000, .i32⟩
  | .hbm, ⟨17, _⟩ => ⟨S1350000, .i32⟩
  | .hbm, ⟨18, _⟩ => ⟨S_, .f32⟩
  | .hbm, ⟨19, _⟩ => ⟨S1350000, .f32⟩
  | .hbm, ⟨20, _⟩ => ⟨S_, .f32⟩
  | .hbm, ⟨21, _⟩ => ⟨S100000, .f32⟩
  | .hbm, ⟨22, _⟩ => ⟨S1350000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1350000, .i32⟩
  | .hbm, ⟨34, _⟩ => ⟨S1350000, .i1⟩
  | .hbm, ⟨35, _⟩ => ⟨S_, .i32⟩
  | .hbm, ⟨36, _⟩ => ⟨S1350000, .i32⟩
  | .hbm, ⟨37, _⟩ => ⟨S1350000, .i32⟩
  | .hbm, ⟨38, _⟩ => ⟨S1350000, .i32⟩
  | .hbm, ⟨39, _⟩ => ⟨S1350000x1, .i32⟩
  | .hbm, ⟨40, _⟩ => ⟨S1350000, .f32⟩
  | .hbm, ⟨41, _⟩ => ⟨S_, .i32⟩
  | .hbm, ⟨42, _⟩ => ⟨S1350000, .i32⟩
  | .hbm, ⟨43, _⟩ => ⟨S1350000, .i1⟩
  | .hbm, ⟨44, _⟩ => ⟨S_, .i32⟩
  | .hbm, ⟨45, _⟩ => ⟨S1350000, .i32⟩
  | .hbm, ⟨46, _⟩ => ⟨S1350000, .i32⟩
  | .hbm, ⟨47, _⟩ => ⟨S1350000, .i32⟩
  | .hbm, ⟨48, _⟩ => ⟨S1350000x1, .i32⟩
  | .hbm, ⟨49, _⟩ => ⟨S1350000, .f32⟩
  | .hbm, ⟨50, _⟩ => ⟨S1350000, .f32⟩
  | .hbm, ⟨51, _⟩ => ⟨S_, .i32⟩
  | .hbm, ⟨52, _⟩ => ⟨S100000, .i32⟩
  | .hbm, ⟨53, _⟩ => ⟨S100000, .i1⟩
  | .hbm, ⟨54, _⟩ => ⟨S_, .i32⟩
  | .hbm, ⟨55, _⟩ => ⟨S100000, .i32⟩
  | .hbm, ⟨56, _⟩ => ⟨S100000, .i32⟩
  | .hbm, ⟨57, _⟩ => ⟨S100000, .i32⟩
  | .hbm, ⟨58, _⟩ => ⟨S100000x1, .i32⟩
  | .hbm, ⟨59, _⟩ => ⟨S100000x64, .f32⟩
  | .hbm, ⟨60, _⟩ => ⟨S100000x64, .f32⟩
  | .hbm, ⟨61, _⟩ => ⟨S_, .i32⟩
  | .hbm, ⟨62, _⟩ => ⟨S1350000, .i32⟩
  | .hbm, ⟨63, _⟩ => ⟨S1350000, .i1⟩
  | .hbm, ⟨64, _⟩ => ⟨S_, .i32⟩
  | .hbm, ⟨65, _⟩ => ⟨S1350000, .i32⟩
  | .hbm, ⟨66, _⟩ => ⟨S1350000, .i32⟩
  | .hbm, ⟨67, _⟩ => ⟨S1350000, .i32⟩
  | .hbm, ⟨68, _⟩ => ⟨S1350000x1, .i32⟩
  | .hbm, ⟨69, _⟩ => ⟨S1350000x64, .f32⟩
  | .hbm, ⟨70, _⟩ => ⟨S1350000x1, .f32⟩
  | .hbm, ⟨71, _⟩ => ⟨S1350000x64, .f32⟩
  | .hbm, ⟨72, _⟩ => ⟨S1350000x64, .f32⟩
  | .hbm, ⟨73, _⟩ => ⟨S_, .f32⟩
  | .hbm, ⟨74, _⟩ => ⟨S100000x64, .f32⟩
  | .hbm, ⟨75, _⟩ => ⟨S1350000x1, .i32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S_, .f32⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S_, .i32⟩
  | .hbm, ⟨85, _⟩ => ⟨S1350000, .i32⟩
  | .hbm, ⟨86, _⟩ => ⟨S1350000, .i1⟩
  | .hbm, ⟨87, _⟩ => ⟨S_, .i32⟩
  | .hbm, ⟨88, _⟩ => ⟨S1350000, .i32⟩
  | .hbm, ⟨89, _⟩ => ⟨S1350000, .i32⟩
  | .hbm, ⟨90, _⟩ => ⟨S1350000, .i32⟩
  | .hbm, ⟨91, _⟩ => ⟨S1350000x1, .i32⟩
  | .hbm, ⟨92, _⟩ => ⟨S1350000x64, .f32⟩
  | .hbm, ⟨93, _⟩ => ⟨S1350000x1, .f32⟩
  | .hbm, ⟨94, _⟩ => ⟨S1350000x64, .f32⟩
  | .hbm, ⟨95, _⟩ => ⟨S1350000x64, .f32⟩
  | .hbm, ⟨96, _⟩ => ⟨S_, .f32⟩
  | .hbm, ⟨97, _⟩ => ⟨S100000x64, .f32⟩
  | .hbm, ⟨98, _⟩ => ⟨S1350000x1, .i32⟩
  | .hbm, ⟨99, _⟩ => ⟨S100000x64, .f32⟩
  | .hbm, ⟨100, _⟩ => ⟨S1x64, .f32⟩
  | .hbm, ⟨101, _⟩ => ⟨S100000x64, .f32⟩
  | .hbm, ⟨102, _⟩ => ⟨S100000x64, .f32⟩
  | .hbm, ⟨103, _⟩ => ⟨S100000x1, .f32⟩
  | .hbm, ⟨104, _⟩ => ⟨S1x1, .f32⟩
  | .hbm, ⟨105, _⟩ => ⟨S100000x1, .f32⟩
  | .hbm, ⟨106, _⟩ => ⟨S100000x1, .f32⟩
  | .hbm, ⟨107, _⟩ => ⟨S_, .f32⟩
  | .hbm, ⟨108, _⟩ => ⟨S2048x1, .f32⟩
  | .hbm, ⟨109, _⟩ => ⟨S100000x1, .i32⟩
  | .hbm, ⟨110, _⟩ => ⟨S2048x1, .f32⟩
  | .hbm, ⟨111, _⟩ => ⟨S2048, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call1_cst : Ref sig .tc := ⟨.hbm, 80, rfl⟩
abbrev main_call1_v0 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_14 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  bcast_S100000_S100000x1_0 : S100000.BroadcastsInDim S100000x1 (![0] : Fin 1 → Fin S100000x1.rank)
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S2048x1 : S_.BroadcastsInDim S2048x1 (![] : Fin 0 → Fin S2048x1.rank)
  shapeCasts_S2048x1_S2048 : S2048x1.ShapeCasts S2048
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  gather_S28x64_S100000x1_S100000x64_1_0_n_n_0_1_164_wf : GatherDims.WF S28x64 S100000x1 S100000x64 [1] [0] [] [0] [] 1 ![1, 64]
  dot_S100000x64_S64x64_S100000x64_1_0_0_1_n_n_wf : DotDims.WF S100000x64 S64x64 S100000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  dot_S100000x64_S64x1_S100000x1_1_0_0_1_n_n_wf : DotDims.WF S100000x64 S64x1 S100000x1 [1] [0] [0] [1] [] []
  scatter_S2048x1_S100000x1_S100000x1_1_0_0_1_wf : ScatterDims.WF S2048x1 S100000x1 S100000x1 [1] [0] [0] 1

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def gather_S28x64_S100000x1_S100000x64_1_0_n_n_0_1_164 : GatherDims S28x64 S100000x1 S100000x64 where
  offsetDims := [1]
  collapsedSliceDims := [0]
  operandBatchingDims := []
  startIndicesBatchingDims := []
  startIndexMap := [0]
  indexVectorDim := 1
  sliceSizes := ![1, 64]
  wf := gather_S28x64_S100000x1_S100000x64_1_0_n_n_0_1_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def scatter_S2048x1_S100000x1_S100000x1_1_0_0_1 : ScatterDims S2048x1 S100000x1 S100000x1 where
  updateWindowDims := [1]
  insertedWindowDims := [0]
  scatterDimsToOperandDims := [0]
  indexVectorDim := 1
  wf := scatter_S2048x1_S100000x1_S100000x1_1_0_0_1_wf

class Facts : Prop extends Facts₀ where

variable [Facts]
-- ==== Proof.Spec.lean ====
/-
  The three dense per-node stages of the two-layer graph convolution, written row by row over the extended reals.

  Every node v carries a nonnegative weight d v (the inverse square root of its degree). The first stage looks
  the node's category x v up in a table `comb` of 28 rows by a one-hot sum and scales the row by d v; the second
  takes an aggregated row a v, rescales it by d v, adds a bias, clips at zero, multiplies by a weight matrix and
  scales by d v again; the third rescales and adds a bias, and contracts the row with one weight column plus a
  bias. Each output row depends on row v of its inputs only, which is what lets a tiling by blocks of rows
  compute it block by block.
-/
import Idealize.ShloMosaic.PureOps.Ideal
import Idealize.ShloMosaic.Lib.ValueIdx

noncomputable section

open scoped BigOperators

namespace Gcn

open Idealize.ShloMosaic Idealize.ShloMosaic.ValueIdx

/-- The one-hot weight of table row `k` for the category word `x`: one when the word is `k`, zero otherwise. -/
def hot (x : BitVec 32) (k : Fin 28) : EReal := if x = BitVec.ofNat 32 k.val then 1 else 0

/-- Row `v`, column `j` of the first stage: the one-hot sum over the table's rows, scaled by the node's weight. -/
def embedRow (x : IVec ⟨2, ![100000, 1]⟩ 32) (comb : FVec Ideal ⟨2, ![28, 64]⟩ .f32)
    (d : FVec Ideal ⟨2, ![100000, 1]⟩ .f32) (v : Fin 100000) (j : Fin 64) : EReal :=
  (∑ k : Fin 28, hot (x (ix2 v 0)) k * comb (ix2 k j)) * d (ix2 v 0)

/-- The first stage as a whole array. -/
def embedOut (x : IVec ⟨2, ![100000, 1]⟩ 32) (comb : FVec Ideal ⟨2, ![28, 64]⟩ .f32)
    (d : FVec Ideal ⟨2, ![100000, 1]⟩ .f32) : FVec Ideal ⟨2, ![100000, 64]⟩ .bf16 :=
  fun i => embedRow x comb d (i 0) (i 1)

/-- Row `v`, column `j` of the second stage: rescale, add the bias, clip at zero, contract with the weights, scale. -/
def reluRow (a : FVec Ideal ⟨2, ![100000, 64]⟩ .f32) (d : FVec Ideal ⟨2, ![100000, 1]⟩ .f32)
    (b : FVec Ideal ⟨1, ![64]⟩ .f32) (w : FVec Ideal ⟨2, ![64, 64]⟩ .f32) (v : Fin 100000) (j : Fin 64) : EReal :=
  (∑ k : Fin 64, max (a (ix2 v k) * d (ix2 v 0) + b (ix1 k)) 0 * w (ix2 k j)) * d (ix2 v 0)

/-- The second stage as a whole array. -/
def reluOut (a : FVec Ideal ⟨2, ![100000, 64]⟩ .f32) (d : FVec Ideal ⟨2, ![100000, 1]⟩ .f32)
    (b : FVec Ideal ⟨1, ![64]⟩ .f32) (w : FVec Ideal ⟨2, ![64, 64]⟩ .f32) : FVec Ideal ⟨2, ![100000, 64]⟩ .bf16 :=
  fun i => reluRow a d b w (i 0) (i 1)

/-- Row `v` of the third stage: rescale, add the bias, contract with the weight column, add the last bias. -/
def readRow (a : FVec Ideal ⟨2, ![100000, 64]⟩ .f32) (d : FVec Ideal ⟨2, ![100000, 1]⟩ .f32)
    (b : FVec Ideal ⟨1, ![64]⟩ .f32) (w : FVec Ideal ⟨2, ![64, 1]⟩ .f32) (lb : FVec Ideal ⟨1, ![1]⟩ .f32)
    (v : Fin 100000) : EReal :=
  (∑ k : Fin 64, (a (ix2 v k) * d (ix2 v 0) + b (ix1 k)) * w (ix2 k 0)) + lb (ix1 0)

/-- The third stage as a whole array (one column). -/
def readOut (a : FVec Ideal ⟨2, ![100000, 64]⟩ .f32) (d : FVec Ideal ⟨2, ![100000, 1]⟩ .f32)
    (b : FVec Ideal ⟨1, ![64]⟩ .f32) (w : FVec Ideal ⟨2, ![64, 1]⟩ .f32) (lb : FVec Ideal ⟨1, ![1]⟩ .f32) :
    FVec Ideal ⟨2, ![100000, 1]⟩ .f32 :=
  fun i => readRow a d b w lb (i 0)

end Gcn

end
-- ==== Proof.KTerm.lean ====
/-
  The kernel-side program as one composed term of the argument arrays, over the extended reals.

  The host operations the two programs share are left as the reference's own stages: the source row of the edge list
  with the self loops appended (`val_main_v3`), the target row likewise (`val_main_v6`), and the per-node weight,
  the inverse square root of the in-degree counted with the self loop (`val_main_v14`). Over those the kernel side is:
  the first dense stage of the category column and the combined table; an aggregation (gather the rows at the wrapped
  source column, scatter-add them at the target column); the second dense stage; the same aggregation; the third dense
  stage; and the readout, a scatter-add of the resulting column at the graph numbers.
-/
import proofs.«413525_j72473278153004_2_alg».proof.Proof.Gen.KernelIdeal
import proofs.«413525_j72473278153004_2_alg».proof.Proof.RefRead
import proofs.«413525_j72473278153004_2_alg».proof.Proof.Spec

noncomputable section

namespace Cert.KernelIdeal.KTerm

open Cert.KernelIdeal Cert.KernelIdeal.Facts₀ Cert.KernelIdeal.Facts Idealize.ShloMosaic
open Cert.ReferenceIdeal.ReadP (val_main_v3 val_main_v6 val_main_v14)

section Builders
variable {F : FTy → Type} [FloatOps F]

/-- A row of 1350000 node numbers as a column, a negative number first wrapped by adding the node count. -/
def wrapCol (s : IVec S1350000 32) : IVec S1350000x1 32 :=
  broadcastInDim S1350000x1 ![0] bcast_S1350000_S1350000x1_0
    (select (cmpi .slt s (broadcastInDim S1350000 ![] bcast_S_S1350000 (constantI S_ 32 0#32)))
      (addi s (broadcastInDim S1350000 ![] bcast_S_S1350000 (constantI S_ 32 100000#32))) s)

/-- A row of 1350000 node numbers as a column, as it is. -/
def dstCol (t : IVec S1350000 32) : IVec S1350000x1 32 :=
  broadcastInDim S1350000x1 ![0] bcast_S1350000_S1350000x1_0 t

/-- One aggregation: the rows of `e` gathered at the wrapped source column, widened, and scatter-added into zeros at
    the target column. -/
def aggK (s t : IVec S1350000 32) (e : FVec F S100000x64 .bf16) : FVec F S100000x64 .f32 :=
  Host.scatterAdd scatter_S100000x64_S1350000x1_S1350000x64_1_0_0_1
    (broadcastInDim S100000x64 ![] bcast_S_S100000x64 (constant S_ .f32 0x00000000#32)) (dstCol t)
    (extf .f32 (Host.gather gather_S100000x64_S1350000x1_S1350000x64_1_0_n_n_0_1_164 e (wrapCol s)) bitsLt_bf16_f32)

/-- The readout: the column `y` as a vector, scatter-added into 2048 zeros at the graph numbers `bt`. -/
def outK (bt : IVec S100000 32) (y : FVec F S100000x1 .f32) : FVec F S2048 .f32 :=
  Host.scatterAdd scatter_S2048_S100000x1_S100000_n_0_0_1
    (broadcastInDim S2048 ![] bcast_S_S2048 (constant S_ .f32 0x00000000#32))
    (broadcastInDim S100000x1 ![0] bcast_S100000_S100000x1_0 bt) (shapeCast S100000 y shapeCasts_S100000x1_S100000)

end Builders

/-! ## The stages at the extended reals -/

variable (x0 : IVec S100000 32) (x1 : IVec S2x1250000 32) (x3 : IVec S100000 32)
  (x4 : FVec Ideal S28x64 .f32) (x5 : FVec Ideal S64x64 .f32) (x6 : FVec Ideal S64 .f32) (x7 : FVec Ideal S64x64 .f32)
  (x8 : FVec Ideal S64 .f32) (x9 : FVec Ideal S64x1 .f32) (x10 : FVec Ideal S1 .f32)

/-- The per-node weight as a column. -/
def dcol : FVec Ideal S100000x1 .f32 :=
  shapeCast S100000x1 (val_main_v14 (F := Ideal) x1) shapeCasts_S100000_S100000x1

/-- The first dense stage. -/
def e1 : FVec Ideal S100000x64 .bf16 :=
  Gcn.embedOut (shapeCast S100000x1 x0 shapeCasts_S100000_S100000x1)
    (Host.dotGeneral dot_S28x64_S64x64_S28x64_1_0_0_1_n_n none x4 x5) (dcol x1)

/-- The first aggregation. -/
def a1 : FVec Ideal S100000x64 .f32 := aggK (val_main_v3 (F := Ideal) x1) (val_main_v6 (F := Ideal) x1) (e1 x0 x1 x4 x5)

/-- The second dense stage. -/
def e2 : FVec Ideal S100000x64 .bf16 := Gcn.reluOut (a1 x0 x1 x4 x5) (dcol x1) x6 x7

/-- The second aggregation. -/
def a2 : FVec Ideal S100000x64 .f32 :=
  aggK (val_main_v3 (F := Ideal) x1) (val_main_v6 (F := Ideal) x1) (e2 x0 x1 x4 x5 x6 x7)

/-- The third dense stage. -/
def yk : FVec Ideal S100000x1 .f32 := Gcn.readOut (a2 x0 x1 x4 x5 x6 x7) (dcol x1) x8 x9 x10

/-- The result. -/
def out : FVec Ideal S2048 .f32 := outK x3 (yk x0 x1 x4 x5 x6 x7 x8 x9 x10)

end Cert.KernelIdeal.KTerm

end
-- ==== Proof.Region0.lean ====
/-
  The first pallas_call over the extended reals: 20 grid points, point t working on rows 5000 t … 5000 t + 4999.
  Its output array after the run is the first stage of Spec.lean (`Gcn.embedOut`) of the three arrays it reads as the
  region finds them: each output block is the stage's block, because a row of the stage depends on that row of the
  inputs only, and the 20 blocks of 5000 rows tile the 100000 rows.
-/
import proofs.«413525_j72473278153004_2_alg».proof.Proof.Gen.KernelIdeal.Frame
import proofs.«413525_j72473278153004_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

-- the buffer contents the region is entered from: every fact below holds at any such contents
variable (V : (c : Dev nD) → (b : Ref sig .tc) → Buf (Elt Ideal) ((c : Thread nD τ).loc b))

/-- The body's one-hot entry is the table row's weight: the comparison bit of the category word against the
    column number, widened and read as a number, is one when they agree and zero otherwise. -/
theorem hot_word (x : BitVec 32) (k : Fin 28) :
    FloatOps.sitofp (F := Ideal) .f32 ((IntOp.cmpi .eq x (BitVec.ofNat 32 k.val)).setWidth 32) = Gcn.hot x k := by
  show ((((IntOp.cmpi .eq x (BitVec.ofNat 32 k.val)).setWidth 32).toInt : ℝ) : EReal) = _
  unfold Gcn.hot IntOp.cmpi
  by_cases h : x = BitVec.ofNat 32 k.val
  · have hb : (x == BitVec.ofNat 32 k.val) = true := beq_iff_eq.mpr h
    rw [if_pos h, hb]
    simp
  · have hb : (x == BitVec.ofNat 32 k.val) = false := beq_eq_false_iff_ne.mpr h
    rw [if_neg h, hb]
    simp

/-! The matrix product's operand indices at an output index and a contraction index, one coordinate each. -/

theorem lhs_embed_0 (i : S5000x64.Idx) (q : dot_S5000x28_S28x64_S5000x64_1_0_0_1_n_n.contr.Idx) :
    (dot_S5000x28_S28x64_S5000x64_1_0_0_1_n_n.lhsIdx i q 0).val = (i 0).val := by
  unfold DotDims.lhsIdx
  rw [dif_neg (show ¬(0 : Fin S5000x28.rank) ∈ dot_S5000x28_S28x64_S5000x64_1_0_0_1_n_n.lhsBatch by decide), dif_pos (show (0 : Fin S5000x28.rank) ∈ dot_S5000x28_S28x64_S5000x64_1_0_0_1_n_n.lhsNonContracting by decide)]
  rfl
theorem lhs_embed_1 (i : S5000x64.Idx) (q : dot_S5000x28_S28x64_S5000x64_1_0_0_1_n_n.contr.Idx) :
    (dot_S5000x28_S28x64_S5000x64_1_0_0_1_n_n.lhsIdx i q 1).val = (q ⟨0, by decide⟩).val :=
  dot_S5000x28_S28x64_S5000x64_1_0_0_1_n_n.lhsIdx_val_of_single rfl i q
theorem rhs_embed_0 (i : S5000x64.Idx) (q : dot_S5000x28_S28x64_S5000x64_1_0_0_1_n_n.contr.Idx) :
    (dot_S5000x28_S28x64_S5000x64_1_0_0_1_n_n.rhsIdx i q 0).val = (q ⟨0, by decide⟩).val :=
  dot_S5000x28_S28x64_S5000x64_1_0_0_1_n_n.rhsIdx_val_of_single rfl i q
theorem rhs_embed_1 (i : S5000x64.Idx) (q : dot_S5000x28_S28x64_S5000x64_1_0_0_1_n_n.contr.Idx) :
    (dot_S5000x28_S28x64_S5000x64_1_0_0_1_n_n.rhsIdx i q 1).val = (i 1).val := by
  unfold DotDims.rhsIdx
  rw [dif_neg (show ¬(1 : Fin S28x64.rank) ∈ dot_S5000x28_S28x64_S5000x64_1_0_0_1_n_n.rhsBatch by decide), dif_pos (show (1 : Fin S28x64.rank) ∈ dot_S5000x28_S28x64_S5000x64_1_0_0_1_n_n.rhsNonContracting by decide)]
  rfl

/-- The product into the zero accumulator at row `r`, column `j`: the sum over the 28 table rows of the left
    operand's row-`r` entry times the right operand's column-`j` entry. -/
theorem matmul_embed_apply (a : FVec Ideal S5000x28 .bf16) (b : FVec Ideal S28x64 .bf16) (r : Fin 5000) (j : Fin 64) :
    matmul dot_S5000x28_S28x64_S5000x64_1_0_0_1_n_n none a b (constant (F := Ideal) S5000x64 .f32 0x00000000#32) (ix2 r j)
      = ∑ k : Fin 28, a (ix2 r k) * b (ix2 k j) := by
  simp only [matmul]
  rw [Ideal.matmul_constant_zero_apply, ← Equiv.sum_comp (ValueIdx.contrEquiv1 dot_S5000x28_S28x64_S5000x64_1_0_0_1_n_n 28 rfl rfl).symm]
  refine Finset.sum_congr rfl fun k _ => ?_
  have hk := ValueIdx.contrEquiv1_symm_val dot_S5000x28_S28x64_S5000x64_1_0_0_1_n_n 28 rfl rfl k
  have el : dot_S5000x28_S28x64_S5000x64_1_0_0_1_n_n.lhsIdx (ix2 r j) ((ValueIdx.contrEquiv1 dot_S5000x28_S28x64_S5000x64_1_0_0_1_n_n 28 rfl rfl).symm k) = ix2 r k := funext fun a => Fin.ext (by
    match a with
    | ⟨0, _⟩ => exact lhs_embed_0 _ _
    | ⟨1, _⟩ => exact (lhs_embed_1 _ _).trans hk)
  have er : dot_S5000x28_S28x64_S5000x64_1_0_0_1_n_n.rhsIdx (ix2 r j) ((ValueIdx.contrEquiv1 dot_S5000x28_S28x64_S5000x64_1_0_0_1_n_n 28 rfl rfl).symm k) = ix2 k j := funext fun a => Fin.ext (by
    match a with
    | ⟨0, _⟩ => exact (rhs_embed_0 _ _).trans hk
    | ⟨1, _⟩ => exact rhs_embed_1 _ _)
  rw [el, er]

/-- A column broadcast along the rows' second axis reads, at row `r` and any column, the column's entry at row `r`. -/
theorem bcast_col_apply {α : Type} {n : Nat} (v : (⟨2, ![5000, 1]⟩ : Shape).Idx → α)
    (h : (⟨2, ![5000, 1]⟩ : Shape).Broadcasts ⟨2, ![5000, n]⟩) (r : Fin 5000) (j : Fin n) :
    broadcastTo ⟨2, ![5000, n]⟩ v h (ix2 r j) = v (ix2 r 0) :=
  broadcastTo_apply v h (ix2 r j) (ix2 r 0) (fun a => by
    match a with
    | ⟨0, _⟩ => rfl
    | ⟨1, _⟩ => rfl)

/-- The body's one-hot operand at row `r`, column `k`: the weight of table row `k` for row `r`'s category word. -/
theorem onehot_apply (x : IVec S5000x1 32) (r : Fin 5000) (k : Fin 28) :
    (truncf .bf16 (sitofp (F := Ideal) .f32 (extui 32 (cmpi .eq (broadcastTo S5000x28 x broadcasts_S5000x1_S5000x28)
        (iota .tc S5000x28 32 [1] iota_S5000x28_d1_w32)) natLt_1_32)) bitsLt_bf16_f32 : FVec Ideal S5000x28 .bf16) (ix2 r k)
      = Gcn.hot (x (ix2 r 0)) k := by
  rw [truncf_apply, sitofp_apply, extui_apply]
  show FloatOps.sitofp (F := Ideal) .f32 ((IntOp.cmpi .eq (broadcastTo S5000x28 x broadcasts_S5000x1_S5000x28 (ix2 r k))
    (iota .tc S5000x28 32 [1] iota_S5000x28_d1_w32 (ix2 r k))).setWidth 32) = _
  rw [bcast_col_apply, iota_single_apply]
  exact hot_word _ k

/-- THE BODY'S RESULT at row `r`, column `j` of a block: the one-hot sum over the 28 table rows for row `r`'s
    category word, times row `r`'s weight. -/
theorem pay_apply (x : Vec Ideal S5000x1 .i32) (comb : Vec Ideal S28x64 .f32) (d : Vec Ideal S5000x1 .f32)
    (r : Fin 5000) (j : Fin 64) :
    k0_pay1 (F := Ideal) x comb d (ix2 r j)
      = (∑ k : Fin 28, Gcn.hot (x (ix2 r 0)) k * comb (ix2 k j)) * d (ix2 r 0) := by
  unfold k0_pay1
  dsimp only
  rw [truncf_apply, mulf_apply, matmul_embed_apply]
  simp only [shapeCast_self]
  rw [bcast_col_apply]
  refine congrArg (· * d (ix2 r 0)) (Finset.sum_congr rfl fun k _ => ?_)
  rw [onehot_apply, truncf_apply]

/-! ## From blocks to the array -/

theorem zero_offsets : (![0, 0] : Fin 2 → Nat) = fun _ => 0 := funext fun a => by fin_cases a <;> rfl

/-- The index maps over the 20 grid points: the category column, the weight column and the output move
    together, block row `t` at point `t`, on their one block column; the table is its one block at every point. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The three input arrays as the region finds them, and their blocks at point `t`, at their literal types. -/
abbrev catArr (c : Dev nD) : IVec S100000x1 32 := V c main_v17
abbrev tabArr (c : Dev nD) : FVec Ideal S28x64 .f32 := V c main_v16
abbrev wgtArr (c : Dev nD) : FVec Ideal S100000x1 .f32 := V c main_v15
abbrev catBlk (c : Dev nD) (t : Fin cfg0.N) : Vec Ideal S5000x1 .i32 := iblk0 V c 0 t
abbrev tabBlk (c : Dev nD) (t : Fin cfg0.N) : Vec Ideal S28x64 .f32 := iblk0 V c 1 t
abbrev wgtBlk (c : Dev nD) (t : Fin cfg0.N) : Vec Ideal S5000x1 .f32 := iblk0 V c 2 t

/-- Row `r` of the category block at point `t` is row `5000 t + r` of the category column. -/
theorem catBlk_apply (c : Dev nD) (t : Fin cfg0.N) (r : Fin 5000) (v : Fin 100000) (hv : v.val = t.val * 5000 + r.val) :
    catBlk V c t (ix2 r 0) = catArr V c (ix2 v 0) := by
  obtain ⟨e0, e1, -⟩ := block_index t
  show V c main_v17 (((cfg0.win 0).blk t).view.emb (ix2 r 0)) = V c main_v17 (ix2 v 0)
  refine congrArg (V c main_v17) (funext fun a => Fin.ext ?_)
  match a with
  | ⟨0, _⟩ => show win0_0.index t (0 : Fin 2) * 5000 + 1 * r.val = v.val; omega
  | ⟨1, _⟩ => show win0_0.index t (1 : Fin 2) * 1 + 1 * 0 = 0; omega

/-- Row `r` of the weight block at point `t` is row `5000 t + r` of the weight column. -/
theorem wgtBlk_apply (c : Dev nD) (t : Fin cfg0.N) (r : Fin 5000) (v : Fin 100000) (hv : v.val = t.val * 5000 + r.val) :
    wgtBlk V c t (ix2 r 0) = wgtArr V c (ix2 v 0) := by
  obtain ⟨-, -, -, -, e0, e1, -⟩ := block_index t
  show V c main_v15 (((cfg0.win 2).blk t).view.emb (ix2 r 0)) = V c main_v15 (ix2 v 0)
  refine congrArg (V c main_v15) (funext fun a => Fin.ext ?_)
  match a with
  | ⟨0, _⟩ => show win0_2.index t (0 : Fin 2) * 5000 + 1 * r.val = v.val; omega
  | ⟨1, _⟩ => show win0_2.index t (1 : Fin 2) * 1 + 1 * 0 = 0; omega

/-- The table's block at every point is the table. -/
theorem tabBlk_apply (c : Dev nD) (t : Fin cfg0.N) (k : Fin 28) (j : Fin 64) :
    tabBlk V c t (ix2 k j) = tabArr V c (ix2 k j) := by
  obtain ⟨-, -, e0, e1, -⟩ := block_index t
  show V c main_v16 (((cfg0.win 1).blk t).view.emb (ix2 k j)) = V c main_v16 (ix2 k j)
  refine congrArg (V c main_v16) (funext fun a => Fin.ext ?_)
  match a with
  | ⟨0, _⟩ => show win0_1.index t (0 : Fin 2) * 28 + 1 * k.val = k.val; omega
  | ⟨1, _⟩ => show win0_1.index t (1 : Fin 2) * 64 + 1 * j.val = j.val; omega

/-- Row `r`, column `j` of the output block at point `t` sits at row `5000 t + r`, column `j` of the output array. -/
theorem outBlk_emb (t : Fin cfg0.N) (r : Fin 5000) (j : Fin 64) (v : Fin 100000) (hv : v.val = t.val * 5000 + r.val) :
    ((cfg0.win 3).blk t).view.emb (ix2 r j) = (ix2 v j : S100000x64.Idx) := by
  obtain ⟨-, -, -, -, -, -, e0, e1⟩ := block_index t
  refine funext fun a => Fin.ext ?_
  match a with
  | ⟨0, _⟩ => show win0_3.index t (0 : Fin 2) * 5000 + 1 * r.val = v.val; omega
  | ⟨1, _⟩ => show win0_3.index t (1 : Fin 2) * 64 + 1 * j.val = j.val; omega

/-- The body's result on the blocks at point `t`, at row `r` and column `j`, is the first stage at row `5000 t + r`. -/
theorem pay_block_apply (c : Dev nD) (t : Fin cfg0.N) (r : Fin 5000) (j : Fin 64) (v : Fin 100000)
    (hv : v.val = t.val * 5000 + r.val) :
    k0_pay1 (F := Ideal) (catBlk V c t) (tabBlk V c t) (wgtBlk V c t) (ix2 r j)
      = Gcn.embedOut (catArr V c) (tabArr V c) (wgtArr V c) (ix2 v j) := by
  rw [pay_apply, catBlk_apply V c t r v hv, wgtBlk_apply V c t r v hv]
  show _ = Gcn.embedRow (catArr V c) (tabArr V c) (wgtArr V c) v j
  unfold Gcn.embedRow
  refine congrArg (· * wgtArr V c (ix2 v 0)) (Finset.sum_congr rfl fun k _ => ?_)
  rw [tabBlk_apply]

/-- WHAT POINT `t` WRITES BACK is block `t` of the first stage of the arrays as the region finds them. -/
theorem flushed_eq (c : Dev nD) (t : Fin cfg0.N) :
    (dat0 (F := Ideal) V c).flushed 3 t
      = ((cfg0.win 3).blk t).view.read (Elt Ideal) (Gcn.embedOut (V c main_v17) (V c main_v16) (V c main_v15)) := by
  show (cfg0.win 3).cut (grid0.coords t) ((dat0 V c).after 3 t) = _
  rw [after0_3]
  unfold out0_3
  rw [View.canon_unit_zero zero_offsets]
  simp only [View.ld_unit_zero (S := S5000x1) zero_offsets, View.ld_unit_zero (S := S28x64) zero_offsets]
  funext y
  obtain ⟨r, j, rfl⟩ : ∃ (r : Fin 5000) (j : Fin 64), y = ix2 r j := ⟨y 0, y 1, eq_ix2 (n0 := 5000) (n1 := 64) y⟩
  have hN : cfg0.N = 20 := N_0
  have hv : t.val * 5000 + r.val < 100000 := by have := t.isLt; have := r.isLt; omega
  show k0_pay1 (F := Ideal) (catBlk V c t) (tabBlk V c t) (wgtBlk V c t) (ix2 r j)
    = Gcn.embedOut (catArr V c) (tabArr V c) (wgtArr V c) (((cfg0.win 3).blk t).view.emb (ix2 r j))
  rw [outBlk_emb t r j ⟨_, hv⟩ rfl]
  exact pay_block_apply V c t r j ⟨_, hv⟩ rfl

/-- An index of the output array is in point `t`'s block iff each coordinate is in the block's range on its axis. -/
theorem mem_outBlk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v18).slice (win0_3.rect t)).set ↔ _
  rw [View.set_slice_whole, Rect.mem_set_unit]
  exact Iff.rfl

/-- The 20 blocks of 5000 rows tile the 100000 rows: row `v` is in the block of point `v / 5000`. -/
theorem rows_covered (i : S100000x64.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 64 := (i 1).isLt
  let t : Fin cfg0.N := ⟨(i 0).val / 5000, by omega⟩
  obtain ⟨-, -, -, -, -, -, e0, e1⟩ := block_index t
  have ht : t.val = (i 0).val / 5000 := rfl
  refine ⟨t, flush0_3 t, ?_⟩
  rw [mem_outBlk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The output array after the region: the first stage of the category column, the combined table and the weight column. -/
theorem final0 (c : Dev nD) :
    (dat0 (F := Ideal) V c).arrAt 3 cfg0.N = Gcn.embedOut (V c main_v17) (V c main_v16) (V c main_v15) := by
  exact (dat0 (F := Ideal) V c).arrAt_eq_of_cover 3 _ (fun t _ => flushed_eq V c t) rows_covered

end Cert.KernelIdeal.Region0

end
-- ==== Proof.Region1.lean ====
/-
  The second pallas_call over the extended reals: 20 grid points, point t working on rows 5000 t … 5000 t + 4999.
  Its output array after the run is the second stage of Spec.lean (`Gcn.reluOut`) of the four arrays it reads as the
  region finds them: a row of the stage depends on that row of the aggregated array and of the weight column only
  (the bias and the weight matrix are read whole at every point), and the 20 blocks of 5000 rows tile the rows.
-/
import proofs.«413525_j72473278153004_2_alg».proof.Proof.Gen.KernelIdeal.Frame
import proofs.«413525_j72473278153004_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

-- the buffer contents the region is entered from: every fact below holds at any such contents
variable (V : (c : Dev nD) → (b : Ref sig .tc) → Buf (Elt Ideal) ((c : Thread nD τ).loc b))

/-! ## The body's arithmetic at an entry -/

/-- A column `[a, 1]` broadcast to `[a, b]` reads, at `(p, c)`, the column's entry of row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand is read at the output's row … -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and the contracted column; -/
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at the contracted row … -/
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and the output's column. -/
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry `(r, j)` of the block product into a zero accumulator: row `r` of the left block against column `j` of the right. -/
theorem matmul_block_apply (l : FVec Ideal S5000x64 .bf16) (w : FVec Ideal S64x64 .bf16) (r : Fin 5000) (j : Fin 64) :
    matmul dot_S5000x64_S64x64_S5000x64_1_0_0_1_n_n none l w (constant (F := Ideal) S5000x64 .f32 0x00000000#32) (ix2 r j)
      = ∑ k : Fin 64, l (ix2 r k) * w (ix2 k j) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 r j) ((ValueIdx.contrEquiv1 dot_S5000x64_S64x64_S5000x64_1_0_0_1_n_n 64 rfl rfl).symm k) = ix2 r k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 r j) ((ValueIdx.contrEquiv1 dot_S5000x64_S64x64_S5000x64_1_0_0_1_n_n 64 rfl rfl).symm k) = ix2 k j := funext fun a => Fin.ext (by
    match a with
    | ⟨0, _⟩ => exact (rhs_row _ _).trans hk
    | ⟨1, _⟩ => exact rhs_col _ _)
  rw [el, er]

/-- Entry `(r, j)` of what the body stores, from the four blocks it loads: row `r` of the first block rescaled by the
    row's weight, the bias added, clipped at zero, contracted with column `j` of the weights, scaled by the row's weight. -/
theorem pay_apply (x0 : FVec Ideal S5000x64 .f32) (x1 : FVec Ideal S5000x1 .f32) (x2 : FVec Ideal S64 .f32) (x3 : FVec Ideal S64x64 .f32)
    (r : Fin 5000) (j : Fin 64) :
    k1_pay1 (F := Ideal) x0 x1 x2 x3 (ix2 r j)
      = (∑ k : Fin 64, max (x0 (ix2 r k) * x1 (ix2 r 0) + x2 (ix1 k)) 0 * x3 (ix2 k j)) * x1 (ix2 r 0) := by
  unfold k1_pay1
  rw [truncf_apply, mulf_apply, broadcastTo_col_apply, shapeCast_self, matmul_block_apply, shapeCast_self x1]
  refine congrArg (· * x1 (ix2 r 0)) (Finset.sum_congr rfl fun k _ => ?_)
  rw [truncf_apply, truncf_apply, maximumf_apply, addf_apply, mulf_apply, broadcastTo_col_apply, broadcastTo_1b_ab_apply,
    shapeCast_a_1a_apply, broadcast_apply]
  show max _ (Ideal.ofBits .f32 0x00000000#32) * _ = _
  rw [Ideal.ofBits_zero_f32]

/-! ## The blocks at a point -/

/-- The body's loads and its store start at the origin of their blocks. -/
theorem origin_pair : (![0, 0] : Fin 2 → Nat) = fun _ => 0 := funext fun a => by fin_cases a <;> rfl
theorem origin_single : (![0] : Fin 1 → Nat) = fun _ => 0 := funext fun a => by fin_cases a; rfl

/-- The windows' index maps over the 20 points: the output, the aggregated array and the weight column sit at block row
    `t`, block column 0; the bias and the weights at their one block. -/
theorem block_indices : ∀ t : Fin cfg1.N, win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0 :=
  (by decide +kernel : ∀ t : Fin grid1.N, _)

theorem point_lt (t : Fin cfg1.N) : t.val < 20 := lt_of_lt_of_eq t.isLt N_1

/-- Row `r` of the block of point `t` is row `5000 t + r` of the array. -/
def rowOf (t : Fin cfg1.N) (r : Fin 5000) : Fin 100000 := ⟨t.val * 5000 + r.val, by have := point_lt t; have := r.isLt; omega⟩

/-- The aggregated array's block at point `t`: rows `5000 t …` of the array, all 64 columns. -/
theorem agg_block (c : Dev nD) (t : Fin cfg1.N) (r : Fin 5000) (k : Fin 64) :
    (iblk1 V c 0 t : FVec Ideal S5000x64 .f32) (ix2 r k) = (V c main_v29 : FVec Ideal S100000x64 .f32) (ix2 (rowOf t r) k) := by
  obtain ⟨-, -, e0, e1, -⟩ := block_indices t
  unfold iblk1
  rw [View.read_apply]
  show V c main_v29 _ = V c main_v29 _
  congr 1
  funext a
  apply Fin.ext
  match a with
  | ⟨0, _⟩ => show win1_0.index t (0 : Fin 2) * 5000 + 1 * r.val = t.val * 5000 + r.val; rw [e0, Nat.one_mul]
  | ⟨1, _⟩ => show win1_0.index t (1 : Fin 2) * 64 + 1 * k.val = k.val; rw [e1, Nat.zero_mul, Nat.zero_add, Nat.one_mul]

/-- The weight column's block at point `t`: the same rows of the column. -/
theorem col_block (c : Dev nD) (t : Fin cfg1.N) (r : Fin 5000) :
    (iblk1 V c 1 t : FVec Ideal S5000x1 .f32) (ix2 r (0 : Fin 1)) = (V c main_v15 : FVec Ideal S100000x1 .f32) (ix2 (rowOf t r) (0 : Fin 1)) := by
  obtain ⟨-, -, -, -, e0, e1, -⟩ := block_indices t
  unfold iblk1
  rw [View.read_apply]
  show V c main_v15 _ = V c main_v15 _
  congr 1
  funext a
  apply Fin.ext
  match a with
  | ⟨0, _⟩ => show win1_1.index t (0 : Fin 2) * 5000 + 1 * r.val = t.val * 5000 + r.val; rw [e0, Nat.one_mul]
  | ⟨1, _⟩ => show win1_1.index t (1 : Fin 2) * 1 + 1 * 0 = 0; rw [e1]

/-- The bias is read whole at every point. -/
theorem bias_block (c : Dev nD) (t : Fin cfg1.N) (k : Fin 64) :
    (iblk1 V c 2 t : FVec Ideal S64 .f32) (ix1 k) = (V c main_arg6 : FVec Ideal S64 .f32) (ix1 k) := by
  obtain ⟨-, -, -, -, -, -, e0, -⟩ := block_indices t
  unfold iblk1
  rw [View.read_apply]
  show V c main_arg6 _ = V c main_arg6 _
  congr 1
  funext a
  apply Fin.ext
  match a with
  | ⟨0, _⟩ => show win1_2.index t (0 : Fin 1) * 64 + 1 * k.val = k.val; rw [e0, Nat.zero_mul, Nat.zero_add, Nat.one_mul]

/-- The weights are read whole at every point. -/
theorem weights_block (c : Dev nD) (t : Fin cfg1.N) (k j : Fin 64) :
    (iblk1 V c 3 t : FVec Ideal S64x64 .f32) (ix2 k j) = (V c main_arg7 : FVec Ideal S64x64 .f32) (ix2 k j) := by
  obtain ⟨-, -, -, -, -, -, -, e0, e1⟩ := block_indices t
  unfold iblk1
  rw [View.read_apply]
  show V c main_arg7 _ = V c main_arg7 _
  congr 1
  funext a
  apply Fin.ext
  match a with
  | ⟨0, _⟩ => show win1_3.index t (0 : Fin 2) * 64 + 1 * k.val = k.val; rw [e0, Nat.zero_mul, Nat.zero_add, Nat.one_mul]
  | ⟨1, _⟩ => show win1_3.index t (1 : Fin 2) * 64 + 1 * j.val = j.val; rw [e1, Nat.zero_mul, Nat.zero_add, Nat.one_mul]

/-- Entry `(r, j)` of the output's block at point `t` is entry `(5000 t + r, j)` of the output array. -/
theorem out_entry (t : Fin cfg1.N) (r : Fin 5000) (j : Fin 64) :
    (((cfg1.win 4).blk t).view.emb (ix2 r j) : S100000x64.Idx) = ix2 (rowOf t r) j := by
  obtain ⟨e0, e1, -⟩ := block_indices t
  funext a
  apply Fin.ext
  match a with
  | ⟨0, _⟩ => show win1_4.index t (0 : Fin 2) * 5000 + 1 * r.val = t.val * 5000 + r.val; rw [e0, Nat.one_mul]
  | ⟨1, _⟩ => show win1_4.index t (1 : Fin 2) * 64 + 1 * j.val = j.val; rw [e1, Nat.zero_mul, Nat.zero_add, Nat.one_mul]

/-- What point `t` writes back is block `t` of the second stage of the region's input arrays. -/
theorem flushed_eq (c : Dev nD) (t : Fin cfg1.N) :
    (dat1 (F := Ideal) V c).flushed 4 t = ((cfg1.win 4).blk t).view.read (Elt Ideal)
      (Gcn.reluOut (V c main_v29) (V c main_v15) (V c main_arg6) (V c main_arg7)) := by
  show (cfg1.win 4).cut (grid1.coords t) ((dat1 V c).after 4 t) = _
  rw [after1_4]
  unfold out1_4
  rw [View.canon_unit_zero origin_pair]
  simp only [View.ld_unit_zero (S := S5000x64) origin_pair, View.ld_unit_zero (S := S5000x1) origin_pair,
    View.ld_unit_zero (S := S64) origin_single, View.ld_unit_zero (S := S64x64) origin_pair]
  show (k1_pay1 (F := Ideal) (iblk1 V c 0 t) (iblk1 V c 1 t) (iblk1 V c 2 t) (iblk1 V c 3 t) : FVec Ideal S5000x64 .bf16)
    = fun y : S5000x64.Idx => Gcn.reluOut (V c main_v29) (V c main_v15) (V c main_arg6) (V c main_arg7) (((cfg1.win 4).blk t).view.emb y)
  funext y
  obtain ⟨r, j, rfl⟩ : ∃ (r : Fin 5000) (j : Fin 64), y = ix2 r j := ⟨y 0, y 1, eq_ix2 y⟩
  rw [pay_apply, out_entry]
  simp only [agg_block, col_block, bias_block, weights_block]
  rfl

/-! ## From the blocks to the array -/

/-- An index of the output array is in point `t`'s block iff each coordinate is in the block's range on its axis. -/
theorem mem_block (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v30).slice (win1_4.rect t)).set ↔ _
  rw [View.set_slice_whole, Rect.mem_set_unit]
  exact Iff.rfl

/-- The 20 blocks of 5000 rows tile the rows: row `v` lies in the block of point `v / 5000`. -/
theorem blocks_cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, by rw [show cfg1.N = 20 from N_1]; omega⟩, rfl⟩
  obtain ⟨e0, e1, -⟩ := block_indices t
  refine ⟨t, flush1_4 t, ?_⟩
  rw [mem_block]
  intro a
  match a with
  | ⟨0, _⟩ =>
    show win1_4.index t (0 : Fin 2) * 5000 ≤ (i 0).val ∧ (i 0).val < win1_4.index t (0 : Fin 2) * 5000 + 5000
    rw [e0, ht]; omega
  | ⟨1, _⟩ =>
    show win1_4.index t (1 : Fin 2) * 64 ≤ (i 1).val ∧ (i 1).val < win1_4.index t (1 : Fin 2) * 64 + 64
    rw [e1]; omega

/-- The output array after the region: the second stage of the aggregated array, the weight column, the bias and the weights. -/
theorem final1 (c : Dev nD) :
    (dat1 (F := Ideal) V c).arrAt 4 cfg1.N = Gcn.reluOut (V c main_v29) (V c main_v15) (V c main_arg6) (V c main_arg7) := by
  exact (dat1 V c).arrAt_eq_of_cover 4 _ (fun t _ => flushed_eq V c t) blocks_cover

end Cert.KernelIdeal.Region1

end
-- ==== Proof.Region2.lean ====
/-
  The third pallas_call over the extended reals: 20 grid points, point t working on rows 5000 t … 5000 t + 4999.
  Its output column after the run is the third stage of Spec.lean (`Gcn.readOut`) of the five arrays it reads as the
  region finds them: a row of the stage depends on that row of the aggregated array and of the weight column only
  (both biases and the weight column are read whole at every point), and the 20 blocks of 5000 rows tile the rows.
-/
import proofs.«413525_j72473278153004_2_alg».proof.Proof.Gen.KernelIdeal.Frame
import proofs.«413525_j72473278153004_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat Cfg Window)

-- the buffer contents the region is entered from: every fact below holds at any such contents
variable (V : (c : Dev nD) → (b : Ref sig .tc) → Buf (Elt Ideal) ((c : Thread nD τ).loc b))

/-- A column block [a,1] laid along every column of [a,b] reads, at (p, c), the column's entry of row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The contraction's operand indices at output row i and contraction index q: the left operand is read at (row of i, q),
    the right at (q, column of i). -/
theorem lhs_row (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem lhs_col (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q
theorem rhs_row (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q
theorem rhs_col (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- The product into a zero accumulator, read at (r, q): the sum over the 64 contracted columns of the left row r times
    the right column q. -/
theorem contract_apply (l : FVec Ideal S5000x64 .bf16) (w : FVec Ideal S64x1 .bf16) (r : Fin 5000) (q : Fin 1) :
    matmul dot_S5000x64_S64x1_S5000x1_1_0_0_1_n_n none l w (constant S5000x1 .f32 0x00000000#32) (ix2 r q)
      = ∑ k : Fin 64, l (ix2 r k) * w (ix2 k q) := by
  show FloatOps.matmul dot_S5000x64_S64x1_S5000x1_1_0_0_1_n_n none l w (constant S5000x1 .f32 0x00000000#32) (ix2 r q) = _
  rw [Ideal.matmul_constant_zero_apply, ← Equiv.sum_comp (ValueIdx.contrEquiv1 dot_S5000x64_S64x1_S5000x1_1_0_0_1_n_n 64 rfl rfl).symm]
  refine Finset.sum_congr rfl fun k _ => ?_
  have hk := ValueIdx.contrEquiv1_symm_val dot_S5000x64_S64x1_S5000x1_1_0_0_1_n_n 64 rfl rfl k
  have el : dot_S5000x64_S64x1_S5000x1_1_0_0_1_n_n.lhsIdx (ix2 r q) ((ValueIdx.contrEquiv1 dot_S5000x64_S64x1_S5000x1_1_0_0_1_n_n 64 rfl rfl).symm k) = ix2 r k := funext fun a => Fin.ext (by
    match a with
    | ⟨0, _⟩ => exact lhs_row _ _
    | ⟨1, _⟩ => exact (lhs_col _ _).trans hk)
  have er : dot_S5000x64_S64x1_S5000x1_1_0_0_1_n_n.rhsIdx (ix2 r q) ((ValueIdx.contrEquiv1 dot_S5000x64_S64x1_S5000x1_1_0_0_1_n_n 64 rfl rfl).symm k) = ix2 k q := funext fun a => Fin.ext (by
    match a with
    | ⟨0, _⟩ => exact (rhs_row _ _).trans hk
    | ⟨1, _⟩ => exact rhs_col _ _)
  rw [el, er]

/-- Row r of the block's result: the aggregated row rescaled by the row's weight plus the bias, contracted with the
    weight column, plus the last bias. -/
theorem readout_block_apply (x0 : FVec Ideal S5000x64 .f32) (x1 : FVec Ideal S5000x1 .f32) (x2 : FVec Ideal S64 .f32)
    (x3 : FVec Ideal S64x1 .f32) (x4 : FVec Ideal S1 .f32) (r : Fin 5000) (q : Fin 1) :
    k2_pay1 (F := Ideal) x0 x1 x2 x3 x4 (ix2 r q)
      = (∑ k : Fin 64, (x0 (ix2 r k) * x1 (ix2 r (0 : Fin 1)) + x2 (ix1 k)) * x3 (ix2 k (0 : Fin 1))) + x4 (ix1 (0 : Fin 1)) := by
  obtain rfl : q = 0 := Subsingleton.elim _ _
  unfold k2_pay1
  rw [addf_apply, contract_apply, broadcastTo_1b_ab_apply, shapeCast_a_1a_apply]
  congr 1
  refine Finset.sum_congr rfl fun k _ => ?_
  rw [truncf_apply, truncf_apply, addf_apply, mulf_apply, broadcastTo_a1_ab_apply, broadcastTo_1b_ab_apply,
    shapeCast_a_1a_apply, shapeCast_self, shapeCast_self]

/-- The zero offsets of a whole-block access, on two axes and on one. -/
theorem zero_offsets2 : (![0, 0] : Fin 2 → Nat) = fun _ => 0 := funext fun a => by fin_cases a <;> rfl
theorem zero_offsets1 : (![0] : Fin 1 → Nat) = fun _ => 0 := funext fun a => by fin_cases a <;> rfl

/-- The index maps over the 20 points: the two row-blocked inputs and the output sit at block row t, column
    block 0; the biases and the weight column are whole. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Row r of the aggregated array's block at point t is row 5000 t + r of the array. -/
theorem agg_block (c : Dev nD) (t : Fin cfg2.N) (r : Fin 5000) (k : Fin 64) (v : Fin 100000) (hv : v.val = t.val * 5000 + r.val) :
    (iblk2 (F := Ideal) V c 0 t : Vec Ideal S5000x64 .f32) (ix2 r k) = (V c main_v41 : FVec Ideal S100000x64 .f32) (ix2 v k) := by
  obtain ⟨e0, e1, -⟩ := block_indices t
  unfold iblk2
  rw [View.read_apply]
  show V c main_v41 _ = V c main_v41 _
  congr 1
  funext a
  apply Fin.ext
  match a with
  | ⟨0, _⟩ => show win2_0.index t 0 * 5000 + 1 * r.val = v.val; rw [e0, hv]; omega
  | ⟨1, _⟩ => show win2_0.index t 1 * 64 + 1 * k.val = k.val; rw [e1]; omega

/-- Row r of the weight column's block at point t is row 5000 t + r of the column. -/
theorem weight_block (c : Dev nD) (t : Fin cfg2.N) (r : Fin 5000) (v : Fin 100000) (hv : v.val = t.val * 5000 + r.val) :
    (iblk2 (F := Ideal) V c 1 t : Vec Ideal S5000x1 .f32) (ix2 r (0 : Fin 1)) = (V c main_v15 : FVec Ideal S100000x1 .f32) (ix2 v (0 : Fin 1)) := by
  obtain ⟨-, -, e0, e1, -⟩ := block_indices t
  unfold iblk2
  rw [View.read_apply]
  show V c main_v15 _ = V c main_v15 _
  congr 1
  funext a
  apply Fin.ext
  match a with
  | ⟨0, _⟩ => show win2_1.index t 0 * 5000 + 1 * r.val = v.val; rw [e0, hv]; omega
  | ⟨1, _⟩ => show win2_1.index t 1 * 1 + 1 * 0 = 0; rw [e1]

/-- The bias is read whole at every point. -/
theorem bias_block (c : Dev nD) (t : Fin cfg2.N) (k : Fin 64) :
    (iblk2 (F := Ideal) V c 2 t : Vec Ideal S64 .f32) (ix1 k) = (V c main_arg8 : FVec Ideal S64 .f32) (ix1 k) := by
  obtain ⟨-, -, -, -, e0, -⟩ := block_indices t
  unfold iblk2
  rw [View.read_apply]
  show V c main_arg8 _ = V c main_arg8 _
  congr 1
  funext a
  apply Fin.ext
  match a with
  | ⟨0, _⟩ => show win2_2.index t 0 * 64 + 1 * k.val = k.val; rw [e0]; omega

/-- The weight column of the contraction is read whole at every point. -/
theorem col_block (c : Dev nD) (t : Fin cfg2.N) (k : Fin 64) :
    (iblk2 (F := Ideal) V c 3 t : Vec Ideal S64x1 .f32) (ix2 k (0 : Fin 1)) = (V c main_arg9 : FVec Ideal S64x1 .f32) (ix2 k (0 : Fin 1)) := by
  obtain ⟨-, -, -, -, -, e0, e1, -⟩ := block_indices t
  unfold iblk2
  rw [View.read_apply]
  show V c main_arg9 _ = V c main_arg9 _
  congr 1
  funext a
  apply Fin.ext
  match a with
  | ⟨0, _⟩ => show win2_3.index t 0 * 64 + 1 * k.val = k.val; rw [e0]; omega
  | ⟨1, _⟩ => show win2_3.index t 1 * 1 + 1 * 0 = 0; rw [e1]

/-- The last bias is read whole at every point. -/
theorem last_bias_block (c : Dev nD) (t : Fin cfg2.N) :
    (iblk2 (F := Ideal) V c 4 t : Vec Ideal S1 .f32) (ix1 (0 : Fin 1)) = (V c main_arg10 : FVec Ideal S1 .f32) (ix1 (0 : Fin 1)) := by
  obtain ⟨-, -, -, -, -, -, -, e0, -⟩ := block_indices t
  unfold iblk2
  rw [View.read_apply]
  show V c main_arg10 _ = V c main_arg10 _
  congr 1
  funext a
  apply Fin.ext
  match a with
  | ⟨0, _⟩ => show win2_4.index t 0 * 1 + 1 * 0 = 0; rw [e0]

/-- What point t writes back is block t of the third stage of the region's input arrays: row r of the block is row
    5000 t + r of the stage, which reads that row of the aggregated array and of the weight column only. -/
theorem writeback_eq_stage_block (c : Dev nD) (t : Fin cfg2.N) :
    (dat2 (F := Ideal) V c).flushed 5 t = ((cfg2.win 5).blk t).view.read (Elt Ideal)
      (Gcn.readOut (V c main_v41) (V c main_v15) (V c main_arg8) (V c main_arg9) (V c main_arg10)) := by
  show (cfg2.win 5).cut (grid2.coords t) ((dat2 V c).after 5 t) = _
  rw [after2_5]
  unfold out2_5
  rw [View.canon_unit_zero zero_offsets2]
  simp only [View.ld_unit_zero (S := S5000x64) zero_offsets2, View.ld_unit_zero (S := S5000x1) zero_offsets2,
    View.ld_unit_zero (S := S64) zero_offsets1, View.ld_unit_zero (S := S64x1) zero_offsets2,
    View.ld_unit_zero (S := S1) zero_offsets1]
  obtain ⟨-, -, -, -, -, -, -, -, e0, e1⟩ := block_indices t
  have hN : cfg2.N = 20 := N_2
  funext y
  have hy0 : (y 0).val < 5000 := (y 0).isLt
  have hy1 : (y 1).val < 1 := (y 1).isLt
  have hv : t.val * 5000 + (y 0).val < 100000 := by have := t.isLt; omega
  have hemb : ((((cfg2.win 5).blk t).view.emb y) 0).val = t.val * 5000 + (y 0).val := by
    show win2_5.index t 0 * 5000 + 1 * (y 0).val = _; rw [e0]; omega
  show k2_pay1 (F := Ideal) _ _ _ _ _ ((cfg2.win 5).xinj (grid2.coords t) y) = Gcn.readRow _ _ _ _ _ ((((cfg2.win 5).blk t).view.emb y) 0)
  have hx : (cfg2.win 5).xinj (grid2.coords t) y = ix2 (⟨(y 0).val, hy0⟩ : Fin 5000) (⟨(y 1).val, hy1⟩ : Fin 1) :=
    funext fun a => by match a with | ⟨0, _⟩ => rfl | ⟨1, _⟩ => rfl
  have hr : ((((cfg2.win 5).blk t).view.emb y) 0) = (⟨t.val * 5000 + (y 0).val, hv⟩ : Fin 100000) := Fin.ext hemb
  refine ((congrArg (k2_pay1 (F := Ideal) _ _ _ _ _) hx).trans (readout_block_apply _ _ _ _ _ _ _)).trans ?_
  refine Eq.trans ?_ (congrArg (Gcn.readRow _ _ _ _ _) hr.symm)
  unfold Gcn.readRow
  refine congrArg₂ (· + ·) (Finset.sum_congr rfl fun k _ => ?_) (last_bias_block V c t)
  exact congrArg₂ (· * ·) (congrArg₂ (· + ·) (congrArg₂ (· * ·) (agg_block V c t _ k _ rfl) (weight_block V c t _ _ rfl)) (bias_block V c t k)) (col_block V c t k)

/-- An index of the output column is in point t's block iff each coordinate is in the block's range on its axis. -/
theorem mem_block (t : Fin cfg2.N) (i : S100000x1.Idx) :
    i ∈ ((cfg2.win 5).blk t).view.set ↔ ∀ a : Fin 2, win2_5.index t a * S5000x1.size a ≤ (i a).val ∧ (i a).val < win2_5.index t a * S5000x1.size a + S5000x1.size a := by
  show i ∈ ((View.whole main_v42).slice (win2_5.rect t)).set ↔ _
  rw [View.set_slice_whole, Rect.mem_set_unit]
  exact Iff.rfl

/-- The 20 blocks of 5000 rows tile the column: row v lies in the block of point v / 5000. -/
theorem rows_covered (i : S100000x1.Idx) :
    ∃ t : Fin cfg2.N, (cfg2.win 5).flush t = true ∧ i ∈ ((cfg2.win 5).blk t).view.set := by
  have hN : cfg2.N = 20 := N_2
  have hi0 : (i 0).val < 100000 := (i 0).isLt
  have hi1 : (i 1).val < 1 := (i 1).isLt
  have ht : (i 0).val / 5000 < cfg2.N := by rw [hN]; omega
  obtain ⟨-, -, -, -, -, -, -, -, e0, e1⟩ := block_indices ⟨(i 0).val / 5000, ht⟩
  refine ⟨⟨(i 0).val / 5000, ht⟩, flush2_5 _, ?_⟩
  rw [mem_block]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, ht⟩ (1 : Fin 2) * 1 ≤ (i 1).val ∧ (i 1).val < win2_5.index ⟨(i 0).val / 5000, ht⟩ (1 : Fin 2) * 1 + 1
    rw [e1]; omega

/-- The output column after the region: the third stage of the aggregated array, the weight column, the biases and the weights. -/
theorem final2 (c : Dev nD) :
    (dat2 (F := Ideal) V c).arrAt 5 cfg2.N = Gcn.readOut (V c main_v41) (V c main_v15) (V c main_arg8) (V c main_arg9) (V c main_arg10) :=
  (dat2 (F := Ideal) V c).arrAt_eq_of_cover 5 _ (fun t _ => writeback_eq_stage_block V c t) rows_covered

end Cert.KernelIdeal.Region2

end
-- ==== Proof.KValue.lean ====
/-
  What the kernel-side program leaves in its result buffer, over the extended reals: the composed term of KTerm.lean.

  The run's buffer contents at each boundary are a fold through the host stretches and the three regions. A stretch
  writes each of its results as its operation applied to what the buffers held before it and leaves every other buffer
  alone; a region leaves in its output array the dense stage of its input arrays (Region0/1/2) and every other buffer,
  its own input arrays included, as it found them. Reading the fold back from the result buffer to the launch memory
  gives the term.
-/
import proofs.«413525_j72473278153004_2_alg».proof.Proof.Gen.KernelIdeal.Frame
import proofs.«413525_j72473278153004_2_alg».proof.Proof.RefRead
import proofs.«413525_j72473278153004_2_alg».proof.Proof.Spec
import proofs.«413525_j72473278153004_2_alg».proof.Proof.KTerm
import proofs.«413525_j72473278153004_2_alg».proof.Proof.Region0
import proofs.«413525_j72473278153004_2_alg».proof.Proof.Region1
import proofs.«413525_j72473278153004_2_alg».proof.Proof.Region2
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo
open Cert.KernelIdeal.KTerm
open Cert.ReferenceIdeal.ReadP (val_main_v3 val_main_v6 val_main_v14)

/-- A buffer none of a stretch's operations writes holds after the stretch what it held before. -/
macro "unwritten " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The host stretches, each from arbitrary contents -/

section Stretches
variable {F : FTy → Type} [FloatOps F] (Vv : Valuation τ sig (Elt F))

set_option maxHeartbeats 4000000 in
/-- After the first three stretches the source row is the reference's stage of the edge list. -/
theorem pre_v3 : after hostOps0_2 (after hostOps0_1 (after hostOps0 Vv)) (Proc.devRef .tc main_v3)
    = val_main_v3 (F := F) (Vv (Proc.devRef .tc main_arg1)) := by
  after_results; rfl

set_option maxHeartbeats 4000000 in
/-- … the target row likewise … -/
theorem pre_v6 : after hostOps0_2 (after hostOps0_1 (after hostOps0 Vv)) (Proc.devRef .tc main_v6)
    = val_main_v6 (F := F) (Vv (Proc.devRef .tc main_arg1)) := by
  after_results; rfl

set_option maxHeartbeats 4000000 in
/-- … the weight column is the reference's per-node weight, reshaped … -/
theorem pre_v15 : after hostOps0_2 (after hostOps0_1 (after hostOps0 Vv)) (Proc.devRef .tc main_v15)
    = shapeCast S100000x1 (val_main_v14 (F := F) (Vv (Proc.devRef .tc main_arg1))) shapeCasts_S100000_S100000x1 := by
  after_results; rfl

set_option maxHeartbeats 4000000 in
/-- … the combined table is the product of the embedding table and the first weights … -/
theorem pre_v16 : after hostOps0_2 (after hostOps0_1 (after hostOps0 Vv)) (Proc.devRef .tc main_v16)
    = Host.dotGeneral dot_S28x64_S64x64_S28x64_1_0_0_1_n_n none (Vv (Proc.devRef .tc main_arg4)) (Vv (Proc.devRef .tc main_arg5)) := by
  after_results

set_option maxHeartbeats 4000000 in
/-- … and the category column is the categories, reshaped. -/
theorem pre_v17 : after hostOps0_2 (after hostOps0_1 (after hostOps0 Vv)) (Proc.devRef .tc main_v17)
    = shapeCast S100000x1 (Vv (Proc.devRef .tc main_arg0)) shapeCasts_S100000_S100000x1 := by
  after_results; rfl

set_option maxHeartbeats 4000000 in
/-- The stretch after the first region aggregates the region's output. -/
theorem s1_v29 : after hostOps1 Vv (Proc.devRef .tc main_v29)
    = aggK (F := F) (Vv (Proc.devRef .tc main_v3)) (Vv (Proc.devRef .tc main_v6)) (Vv (Proc.devRef .tc main_v18)) := by
  after_results; rfl

set_option maxHeartbeats 4000000 in
/-- The stretch after the second region aggregates that region's output. -/
theorem s2_v41 : after hostOps2 Vv (Proc.devRef .tc main_v41)
    = aggK (F := F) (Vv (Proc.devRef .tc main_v3)) (Vv (Proc.devRef .tc main_v6)) (Vv (Proc.devRef .tc main_v30)) := by
  after_results; rfl

set_option maxHeartbeats 4000000 in
/-- The last stretch reads the third region's column out at the graph numbers. -/
theorem s3_v46 : after hostOps3 Vv (Proc.devRef .tc main_v46)
    = outK (F := F) (Vv (Proc.devRef .tc main_arg3)) (Vv (Proc.devRef .tc main_v42)) := by
  after_results; rfl

end Stretches

/-! ## The boundaries, read back to the launch memory -/

section Chain
variable (m : (ℓ : Loc nD τ sig) → Buf (Elt Ideal) ℓ) (ρ : Dev nD → PrngReg) (c : Dev nD)

/-! ### Argument arrays: no stretch writes one, and a region leaves its input arrays as it found them -/
theorem W1_a3 : W1 m ρ c (Proc.devRef .tc main_arg3) = m ((c : Thread nD τ).loc main_arg3) :=
  ((unwritten hostOps0) : W1 m ρ c (Proc.devRef .tc main_arg3) = W0 m ρ c (Proc.devRef .tc main_arg3)).trans rfl
theorem W2_a3 : W2 m ρ c (Proc.devRef .tc main_arg3) = m ((c : Thread nD τ).loc main_arg3) :=
  ((unwritten hostOps0_1) : W2 m ρ c (Proc.devRef .tc main_arg3) = W1 m ρ c (Proc.devRef .tc main_arg3)).trans (W1_a3 m ρ c)
theorem W3_a3 : W3 m ρ c (Proc.devRef .tc main_arg3) = m ((c : Thread nD τ).loc main_arg3) :=
  ((unwritten hostOps0_2) : W3 m ρ c (Proc.devRef .tc main_arg3) = W2 m ρ c (Proc.devRef .tc main_arg3)).trans (W2_a3 m ρ c)
theorem W4_a3 : W4 m ρ c (Proc.devRef .tc main_arg3) = m ((c : Thread nD τ).loc main_arg3) :=
  ((W4_of_ne m ρ c main_arg3 (by decide)) : W4 m ρ c (Proc.devRef .tc main_arg3) = W3 m ρ c (Proc.devRef .tc main_arg3)).trans (W3_a3 m ρ c)
theorem W5_a3 : W5 m ρ c (Proc.devRef .tc main_arg3) = m ((c : Thread nD τ).loc main_arg3) :=
  ((unwritten hostOps1) : W5 m ρ c (Proc.devRef .tc main_arg3) = W4 m ρ c (Proc.devRef .tc main_arg3)).trans (W4_a3 m ρ c)
theorem W6_a3 : W6 m ρ c (Proc.devRef .tc main_arg3) = m ((c : Thread nD τ).loc main_arg3) :=
  ((W6_of_ne m ρ c main_arg3 (by decide)) : W6 m ρ c (Proc.devRef .tc main_arg3) = W5 m ρ c (Proc.devRef .tc main_arg3)).trans (W5_a3 m ρ c)
theorem W7_a3 : W7 m ρ c (Proc.devRef .tc main_arg3) = m ((c : Thread nD τ).loc main_arg3) :=
  ((unwritten hostOps2) : W7 m ρ c (Proc.devRef .tc main_arg3) = W6 m ρ c (Proc.devRef .tc main_arg3)).trans (W6_a3 m ρ c)
theorem W8_a3 : W8 m ρ c (Proc.devRef .tc main_arg3) = m ((c : Thread nD τ).loc main_arg3) :=
  ((W8_of_ne m ρ c main_arg3 (by decide)) : W8 m ρ c (Proc.devRef .tc main_arg3) = W7 m ρ c (Proc.devRef .tc main_arg3)).trans (W7_a3 m ρ c)
theorem W1_a6 : W1 m ρ c (Proc.devRef .tc main_arg6) = m ((c : Thread nD τ).loc main_arg6) :=
  ((unwritten hostOps0) : W1 m ρ c (Proc.devRef .tc main_arg6) = W0 m ρ c (Proc.devRef .tc main_arg6)).trans rfl
theorem W2_a6 : W2 m ρ c (Proc.devRef .tc main_arg6) = m ((c : Thread nD τ).loc main_arg6) :=
  ((unwritten hostOps0_1) : W2 m ρ c (Proc.devRef .tc main_arg6) = W1 m ρ c (Proc.devRef .tc main_arg6)).trans (W1_a6 m ρ c)
theorem W3_a6 : W3 m ρ c (Proc.devRef .tc main_arg6) = m ((c : Thread nD τ).loc main_arg6) :=
  ((unwritten hostOps0_2) : W3 m ρ c (Proc.devRef .tc main_arg6) = W2 m ρ c (Proc.devRef .tc main_arg6)).trans (W2_a6 m ρ c)
theorem W4_a6 : W4 m ρ c (Proc.devRef .tc main_arg6) = m ((c : Thread nD τ).loc main_arg6) :=
  ((W4_of_ne m ρ c main_arg6 (by decide)) : W4 m ρ c (Proc.devRef .tc main_arg6) = W3 m ρ c (Proc.devRef .tc main_arg6)).trans (W3_a6 m ρ c)
theorem W5_a6 : W5 m ρ c (Proc.devRef .tc main_arg6) = m ((c : Thread nD τ).loc main_arg6) :=
  ((unwritten hostOps1) : W5 m ρ c (Proc.devRef .tc main_arg6) = W4 m ρ c (Proc.devRef .tc main_arg6)).trans (W4_a6 m ρ c)
theorem W1_a7 : W1 m ρ c (Proc.devRef .tc main_arg7) = m ((c : Thread nD τ).loc main_arg7) :=
  ((unwritten hostOps0) : W1 m ρ c (Proc.devRef .tc main_arg7) = W0 m ρ c (Proc.devRef .tc main_arg7)).trans rfl
theorem W2_a7 : W2 m ρ c (Proc.devRef .tc main_arg7) = m ((c : Thread nD τ).loc main_arg7) :=
  ((unwritten hostOps0_1) : W2 m ρ c (Proc.devRef .tc main_arg7) = W1 m ρ c (Proc.devRef .tc main_arg7)).trans (W1_a7 m ρ c)
theorem W3_a7 : W3 m ρ c (Proc.devRef .tc main_arg7) = m ((c : Thread nD τ).loc main_arg7) :=
  ((unwritten hostOps0_2) : W3 m ρ c (Proc.devRef .tc main_arg7) = W2 m ρ c (Proc.devRef .tc main_arg7)).trans (W2_a7 m ρ c)
theorem W4_a7 : W4 m ρ c (Proc.devRef .tc main_arg7) = m ((c : Thread nD τ).loc main_arg7) :=
  ((W4_of_ne m ρ c main_arg7 (by decide)) : W4 m ρ c (Proc.devRef .tc main_arg7) = W3 m ρ c (Proc.devRef .tc main_arg7)).trans (W3_a7 m ρ c)
theorem W5_a7 : W5 m ρ c (Proc.devRef .tc main_arg7) = m ((c : Thread nD τ).loc main_arg7) :=
  ((unwritten hostOps1) : W5 m ρ c (Proc.devRef .tc main_arg7) = W4 m ρ c (Proc.devRef .tc main_arg7)).trans (W4_a7 m ρ c)
theorem W1_a8 : W1 m ρ c (Proc.devRef .tc main_arg8) = m ((c : Thread nD τ).loc main_arg8) :=
  ((unwritten hostOps0) : W1 m ρ c (Proc.devRef .tc main_arg8) = W0 m ρ c (Proc.devRef .tc main_arg8)).trans rfl
theorem W2_a8 : W2 m ρ c (Proc.devRef .tc main_arg8) = m ((c : Thread nD τ).loc main_arg8) :=
  ((unwritten hostOps0_1) : W2 m ρ c (Proc.devRef .tc main_arg8) = W1 m ρ c (Proc.devRef .tc main_arg8)).trans (W1_a8 m ρ c)
theorem W3_a8 : W3 m ρ c (Proc.devRef .tc main_arg8) = m ((c : Thread nD τ).loc main_arg8) :=
  ((unwritten hostOps0_2) : W3 m ρ c (Proc.devRef .tc main_arg8) = W2 m ρ c (Proc.devRef .tc main_arg8)).trans (W2_a8 m ρ c)
theorem W4_a8 : W4 m ρ c (Proc.devRef .tc main_arg8) = m ((c : Thread nD τ).loc main_arg8) :=
  ((W4_of_ne m ρ c main_arg8 (by decide)) : W4 m ρ c (Proc.devRef .tc main_arg8) = W3 m ρ c (Proc.devRef .tc main_arg8)).trans (W3_a8 m ρ c)
theorem W5_a8 : W5 m ρ c (Proc.devRef .tc main_arg8) = m ((c : Thread nD τ).loc main_arg8) :=
  ((unwritten hostOps1) : W5 m ρ c (Proc.devRef .tc main_arg8) = W4 m ρ c (Proc.devRef .tc main_arg8)).trans (W4_a8 m ρ c)
theorem W6_a8 : W6 m ρ c (Proc.devRef .tc main_arg8) = m ((c : Thread nD τ).loc main_arg8) :=
  ((W6_of_ne m ρ c main_arg8 (by decide)) : W6 m ρ c (Proc.devRef .tc main_arg8) = W5 m ρ c (Proc.devRef .tc main_arg8)).trans (W5_a8 m ρ c)
theorem W7_a8 : W7 m ρ c (Proc.devRef .tc main_arg8) = m ((c : Thread nD τ).loc main_arg8) :=
  ((unwritten hostOps2) : W7 m ρ c (Proc.devRef .tc main_arg8) = W6 m ρ c (Proc.devRef .tc main_arg8)).trans (W6_a8 m ρ c)
theorem W1_a9 : W1 m ρ c (Proc.devRef .tc main_arg9) = m ((c : Thread nD τ).loc main_arg9) :=
  ((unwritten hostOps0) : W1 m ρ c (Proc.devRef .tc main_arg9) = W0 m ρ c (Proc.devRef .tc main_arg9)).trans rfl
theorem W2_a9 : W2 m ρ c (Proc.devRef .tc main_arg9) = m ((c : Thread nD τ).loc main_arg9) :=
  ((unwritten hostOps0_1) : W2 m ρ c (Proc.devRef .tc main_arg9) = W1 m ρ c (Proc.devRef .tc main_arg9)).trans (W1_a9 m ρ c)
theorem W3_a9 : W3 m ρ c (Proc.devRef .tc main_arg9) = m ((c : Thread nD τ).loc main_arg9) :=
  ((unwritten hostOps0_2) : W3 m ρ c (Proc.devRef .tc main_arg9) = W2 m ρ c (Proc.devRef .tc main_arg9)).trans (W2_a9 m ρ c)
theorem W4_a9 : W4 m ρ c (Proc.devRef .tc main_arg9) = m ((c : Thread nD τ).loc main_arg9) :=
  ((W4_of_ne m ρ c main_arg9 (by decide)) : W4 m ρ c (Proc.devRef .tc main_arg9) = W3 m ρ c (Proc.devRef .tc main_arg9)).trans (W3_a9 m ρ c)
theorem W5_a9 : W5 m ρ c (Proc.devRef .tc main_arg9) = m ((c : Thread nD τ).loc main_arg9) :=
  ((unwritten hostOps1) : W5 m ρ c (Proc.devRef .tc main_arg9) = W4 m ρ c (Proc.devRef .tc main_arg9)).trans (W4_a9 m ρ c)
theorem W6_a9 : W6 m ρ c (Proc.devRef .tc main_arg9) = m ((c : Thread nD τ).loc main_arg9) :=
  ((W6_of_ne m ρ c main_arg9 (by decide)) : W6 m ρ c (Proc.devRef .tc main_arg9) = W5 m ρ c (Proc.devRef .tc main_arg9)).trans (W5_a9 m ρ c)
theorem W7_a9 : W7 m ρ c (Proc.devRef .tc main_arg9) = m ((c : Thread nD τ).loc main_arg9) :=
  ((unwritten hostOps2) : W7 m ρ c (Proc.devRef .tc main_arg9) = W6 m ρ c (Proc.devRef .tc main_arg9)).trans (W6_a9 m ρ c)
theorem W1_a10 : W1 m ρ c (Proc.devRef .tc main_arg10) = m ((c : Thread nD τ).loc main_arg10) :=
  ((unwritten hostOps0) : W1 m ρ c (Proc.devRef .tc main_arg10) = W0 m ρ c (Proc.devRef .tc main_arg10)).trans rfl
theorem W2_a10 : W2 m ρ c (Proc.devRef .tc main_arg10) = m ((c : Thread nD τ).loc main_arg10) :=
  ((unwritten hostOps0_1) : W2 m ρ c (Proc.devRef .tc main_arg10) = W1 m ρ c (Proc.devRef .tc main_arg10)).trans (W1_a10 m ρ c)
theorem W3_a10 : W3 m ρ c (Proc.devRef .tc main_arg10) = m ((c : Thread nD τ).loc main_arg10) :=
  ((unwritten hostOps0_2) : W3 m ρ c (Proc.devRef .tc main_arg10) = W2 m ρ c (Proc.devRef .tc main_arg10)).trans (W2_a10 m ρ c)
theorem W4_a10 : W4 m ρ c (Proc.devRef .tc main_arg10) = m ((c : Thread nD τ).loc main_arg10) :=
  ((W4_of_ne m ρ c main_arg10 (by decide)) : W4 m ρ c (Proc.devRef .tc main_arg10) = W3 m ρ c (Proc.devRef .tc main_arg10)).trans (W3_a10 m ρ c)
theorem W5_a10 : W5 m ρ c (Proc.devRef .tc main_arg10) = m ((c : Thread nD τ).loc main_arg10) :=
  ((unwritten hostOps1) : W5 m ρ c (Proc.devRef .tc main_arg10) = W4 m ρ c (Proc.devRef .tc main_arg10)).trans (W4_a10 m ρ c)
theorem W6_a10 : W6 m ρ c (Proc.devRef .tc main_arg10) = m ((c : Thread nD τ).loc main_arg10) :=
  ((W6_of_ne m ρ c main_arg10 (by decide)) : W6 m ρ c (Proc.devRef .tc main_arg10) = W5 m ρ c (Proc.devRef .tc main_arg10)).trans (W5_a10 m ρ c)
theorem W7_a10 : W7 m ρ c (Proc.devRef .tc main_arg10) = m ((c : Thread nD τ).loc main_arg10) :=
  ((unwritten hostOps2) : W7 m ρ c (Proc.devRef .tc main_arg10) = W6 m ρ c (Proc.devRef .tc main_arg10)).trans (W6_a10 m ρ c)

/-! ### The shared host stages -/

/-- Entering the first region, the source row is the reference's stage of the edge list … -/
theorem W3_v3 : W3 m ρ c (Proc.devRef .tc main_v3) = val_main_v3 (F := Ideal) (m ((c : Thread nD τ).loc main_arg1)) := pre_v3 (W0 m ρ c)
/-- … the target row likewise … -/
theorem W3_v6 : W3 m ρ c (Proc.devRef .tc main_v6) = val_main_v6 (F := Ideal) (m ((c : Thread nD τ).loc main_arg1)) := pre_v6 (W0 m ρ c)
/-- … the weight column is the per-node weight as a column … -/
theorem W3_v15 : W3 m ρ c (Proc.devRef .tc main_v15) = dcol (m ((c : Thread nD τ).loc main_arg1)) := pre_v15 (W0 m ρ c)
/-- … the combined table is the embedding table times the first weights … -/
theorem W3_v16 : W3 m ρ c (Proc.devRef .tc main_v16)
    = Host.dotGeneral (F := Ideal) (φ₁ := .f32) (φ₂ := .f32) dot_S28x64_S64x64_S28x64_1_0_0_1_n_n none
        (m ((c : Thread nD τ).loc main_arg4)) (m ((c : Thread nD τ).loc main_arg5)) := pre_v16 (W0 m ρ c)
/-- … and the category column is the categories as a column. -/
theorem W3_v17 : W3 m ρ c (Proc.devRef .tc main_v17) = shapeCast S100000x1 (m ((c : Thread nD τ).loc main_arg0)) shapeCasts_S100000_S100000x1 := pre_v17 (W0 m ρ c)
theorem W4_v3 : W4 m ρ c (Proc.devRef .tc main_v3) = val_main_v3 (F := Ideal) (m ((c : Thread nD τ).loc main_arg1)) :=
  ((W4_of_ne m ρ c main_v3 (by decide)) : W4 m ρ c (Proc.devRef .tc main_v3) = W3 m ρ c (Proc.devRef .tc main_v3)).trans (W3_v3 m ρ c)
theorem W5_v3 : W5 m ρ c (Proc.devRef .tc main_v3) = val_main_v3 (F := Ideal) (m ((c : Thread nD τ).loc main_arg1)) :=
  ((unwritten hostOps1) : W5 m ρ c (Proc.devRef .tc main_v3) = W4 m ρ c (Proc.devRef .tc main_v3)).trans (W4_v3 m ρ c)
theorem W6_v3 : W6 m ρ c (Proc.devRef .tc main_v3) = val_main_v3 (F := Ideal) (m ((c : Thread nD τ).loc main_arg1)) :=
  ((W6_of_ne m ρ c main_v3 (by decide)) : W6 m ρ c (Proc.devRef .tc main_v3) = W5 m ρ c (Proc.devRef .tc main_v3)).trans (W5_v3 m ρ c)
theorem W4_v6 : W4 m ρ c (Proc.devRef .tc main_v6) = val_main_v6 (F := Ideal) (m ((c : Thread nD τ).loc main_arg1)) :=
  ((W4_of_ne m ρ c main_v6 (by decide)) : W4 m ρ c (Proc.devRef .tc main_v6) = W3 m ρ c (Proc.devRef .tc main_v6)).trans (W3_v6 m ρ c)
theorem W5_v6 : W5 m ρ c (Proc.devRef .tc main_v6) = val_main_v6 (F := Ideal) (m ((c : Thread nD τ).loc main_arg1)) :=
  ((unwritten hostOps1) : W5 m ρ c (Proc.devRef .tc main_v6) = W4 m ρ c (Proc.devRef .tc main_v6)).trans (W4_v6 m ρ c)
theorem W6_v6 : W6 m ρ c (Proc.devRef .tc main_v6) = val_main_v6 (F := Ideal) (m ((c : Thread nD τ).loc main_arg1)) :=
  ((W6_of_ne m ρ c main_v6 (by decide)) : W6 m ρ c (Proc.devRef .tc main_v6) = W5 m ρ c (Proc.devRef .tc main_v6)).trans (W5_v6 m ρ c)
theorem W4_v15 : W4 m ρ c (Proc.devRef .tc main_v15) = dcol (m ((c : Thread nD τ).loc main_arg1)) :=
  (((W4_arr m ρ c 2).trans (((dat0 (V3 m ρ) c).arrAt_in 2 rfl _).trans (A_eq0 (V3 m ρ) c 2))) : W4 m ρ c (Proc.devRef .tc main_v15) = W3 m ρ c (Proc.devRef .tc main_v15)).trans (W3_v15 m ρ c)
theorem W5_v15 : W5 m ρ c (Proc.devRef .tc main_v15) = dcol (m ((c : Thread nD τ).loc main_arg1)) :=
  ((unwritten hostOps1) : W5 m ρ c (Proc.devRef .tc main_v15) = W4 m ρ c (Proc.devRef .tc main_v15)).trans (W4_v15 m ρ c)
theorem W6_v15 : W6 m ρ c (Proc.devRef .tc main_v15) = dcol (m ((c : Thread nD τ).loc main_arg1)) :=
  (((W6_arr m ρ c 1).trans (((dat1 (V5 m ρ) c).arrAt_in 1 rfl _).trans (A_eq1 (V5 m ρ) c 1))) : W6 m ρ c (Proc.devRef .tc main_v15) = W5 m ρ c (Proc.devRef .tc main_v15)).trans (W5_v15 m ρ c)
theorem W7_v15 : W7 m ρ c (Proc.devRef .tc main_v15) = dcol (m ((c : Thread nD τ).loc main_arg1)) :=
  ((unwritten hostOps2) : W7 m ρ c (Proc.devRef .tc main_v15) = W6 m ρ c (Proc.devRef .tc main_v15)).trans (W6_v15 m ρ c)

/-! ### The regions' outputs and the aggregations between them -/

/-- Leaving the first region, its output array is the first dense stage. -/
theorem W4_v18 : W4 m ρ c (Proc.devRef .tc main_v18) = e1 (m ((c : Thread nD τ).loc main_arg0)) (m ((c : Thread nD τ).loc main_arg1)) (m ((c : Thread nD τ).loc main_arg4)) (m ((c : Thread nD τ).loc main_arg5)) :=
  (W4_arr m ρ c 3).trans ((Cert.KernelIdeal.Region0.final0 (V3 m ρ) c).trans (by
    show Gcn.embedOut (W3 m ρ c (Proc.devRef .tc main_v17)) (W3 m ρ c (Proc.devRef .tc main_v16)) (W3 m ρ c (Proc.devRef .tc main_v15)) = _
    rw [W3_v17, W3_v16, W3_v15]; rfl))

/-- Entering the second region, the aggregated array is the first aggregation. -/
theorem W5_v29 : W5 m ρ c (Proc.devRef .tc main_v29) = a1 (m ((c : Thread nD τ).loc main_arg0)) (m ((c : Thread nD τ).loc main_arg1)) (m ((c : Thread nD τ).loc main_arg4)) (m ((c : Thread nD τ).loc main_arg5)) :=
  (s1_v29 (W4 m ρ c)).trans (by rw [W4_v3, W4_v6, W4_v18]; rfl)

/-- Leaving the second region, its output array is the second dense stage. -/
theorem W6_v30 : W6 m ρ c (Proc.devRef .tc main_v30) = e2 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) :=
  (W6_arr m ρ c 4).trans ((Cert.KernelIdeal.Region1.final1 (V5 m ρ) c).trans (by
    show Gcn.reluOut (W5 m ρ c (Proc.devRef .tc main_v29)) (W5 m ρ c (Proc.devRef .tc main_v15)) (W5 m ρ c (Proc.devRef .tc main_arg6)) (W5 m ρ c (Proc.devRef .tc main_arg7)) = _
    rw [W5_v29, W5_v15, W5_a6, W5_a7]; rfl))

/-- Entering the third region, the aggregated array is the second aggregation. -/
theorem W7_v41 : W7 m ρ c (Proc.devRef .tc main_v41) = a2 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) :=
  (s2_v41 (W6 m ρ c)).trans (by rw [W6_v3, W6_v6, W6_v30]; rfl)

/-- Leaving the third region, its output column is the third dense stage. -/
theorem W8_v42 : W8 m ρ c (Proc.devRef .tc main_v42) = yk (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W8_arr m ρ c 5).trans ((Cert.KernelIdeal.Region2.final2 (V7 m ρ) c).trans (by
    show Gcn.readOut (W7 m ρ c (Proc.devRef .tc main_v41)) (W7 m ρ c (Proc.devRef .tc main_v15)) (W7 m ρ c (Proc.devRef .tc main_arg8)) (W7 m ρ c (Proc.devRef .tc main_arg9)) (W7 m ρ c (Proc.devRef .tc main_arg10)) = _
    rw [W7_v41, W7_v15, W7_a8, W7_a9, W7_a10]; rfl))

/-- THE RESULT BUFFER at the last boundary: the composed term of the argument arrays as launched. -/
theorem W9_v46 : W9 m ρ c (Proc.devRef .tc main_v46)
    = out (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (s3_v46 (W8 m ρ c)).trans (by rw [W8_a3, W8_v42]; rfl)

end Chain

end Cert.KernelIdeal.KValue

end
-- ==== Proof.LibRowOps.lean ====
/-
  Row gathers and row scatter-adds of a matrix, read at an index, and their commutation with a slice of columns.

  A matrix `x : [N, C]` gathered at a column `idx : [E, 1]` of row numbers gives `[E, C]`: row `e` of the result is
  row `clamp(idx e)` of `x` (the start index read signed and clamped into `[0, N - 1]`).
  A scatter-add of updates `u : [E, C]` at the same kind of column into `x : [N, C]` adds to row `r` every update
  row `e` whose index, read signed and unclamped, is `r`; rows whose index is out of range are dropped.
  Both act column by column, so both commute with taking a block of columns.
-/
import Idealize.ShloMosaic.PureOps.Ideal
import Idealize.ShloMosaic.Lib.ValueIdx

noncomputable section

open scoped BigOperators

namespace RowOps

open Idealize.ShloMosaic Idealize.ShloMosaic.ValueIdx

/-! ## A block of columns of a matrix -/

/-- The block of `C'` columns starting at column `off`, read at `(r, q)`: the matrix at `(r, off + q)`. -/
theorem colSlice_apply {α : Type} {M C C' off : Nat} (h : (⟨2, ![M, C]⟩ : Shape).Slices ![0, off] ⟨2, ![M, C']⟩)
    (x : (⟨2, ![M, C]⟩ : Shape).Idx → α) (r : Fin M) (q : Fin C') (hq : off + q.val < C) :
    extractStridedSlice ⟨2, ![M, C']⟩ ![0, off] x h (ix2 r q) = x (ix2 r ⟨off + q.val, hq⟩) := by
  unfold extractStridedSlice
  congr 1
  funext a
  match a with
  | ⟨0, _⟩ => exact Fin.ext (Nat.zero_add _)
  | ⟨1, _⟩ => rfl

/-! ## The row gather -/

section Gather
variable {α : Type}

/-- The dimension numbers of `x[idx]` over the rows of a matrix: operand `[N, C]`, start indices `[E, 1]`, result `[E, C]`. -/
abbrev gatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N - 1]`. -/
def clampRow {w : Nat} (N : Nat) (hN : 0 < N) (b : BitVec w) : Fin N := ⟨min b.toInt.toNat (N - 1), by omega⟩

/-- Entry `(e, q)` of the row gather is the matrix at the clamped row `idx e`, column `q`. -/
theorem gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (gatherDims N E C wf) x idx (ix2 e q) = x (ix2 (clampRow N hN (idx (ix2 e 0))) q) := by
  unfold Host.gather
  congr 1
  funext a
  refine Fin.ext ?_
  match a with
  | ⟨0, _⟩ =>
    show (gatherDims N E C wf).start (ix2 e q) idx 0 + (gatherDims N E C wf).batchCoord (ix2 e q) 0
      + (gatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N E C wf).startIndexMap from List.mem_singleton.mpr rfl)]
    have hsi : (gatherDims N E C wf).siIdx (ix2 e q) ⟨List.idxOf (0 : Fin 2) (gatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherDims N E C wf).start (ix2 e q) idx 1 + (gatherDims N E C wf).batchCoord (ix2 e q) 1
      + (gatherDims N E C wf).offCoord (ix2 e q) 1 = q.val
    rw [GatherDims.batchCoord_eq_zero _ _ _ List.not_mem_nil]
    unfold GatherDims.start
    rw [dif_neg (show (1 : Fin 2) ∉ (gatherDims N E C wf).startIndexMap from by
      show (1 : Fin 2) ∉ [(0 : Fin 2)]; decide)]
    simp only [Nat.add_zero, Nat.zero_add]
    rfl

/-- The row gather commutes with a block of columns. -/
theorem gather_colSlice {N E C C' off w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : (⟨2, ![N, C]⟩ : Shape).Idx → α) (idx : IVec ⟨2, ![E, 1]⟩ w) :
    extractStridedSlice ⟨2, ![E, C']⟩ ![0, off] (Host.gather (gatherDims N E C wf) x idx) hE
      = Host.gather (gatherDims N E C' wf') (extractStridedSlice ⟨2, ![N, C']⟩ ![0, off] x hNs) idx := by
  funext j
  obtain ⟨e, q, rfl⟩ : ∃ (e : Fin E) (q : Fin C'), j = ix2 e q := ⟨j 0, j 1, eq_ix2 j⟩
  have hq : off + q.val < C := by have := q.isLt; omega
  rw [colSlice_apply hE _ e q hq, gather_apply hN wf, gather_apply hN wf', colSlice_apply hNs _ _ q hq]

end Gather

/-! ## The row scatter-add -/

section Scatter

/-- The dimension numbers of `x.at[idx].add(u)` over the rows of a matrix: operand `[N, C]`, scatter indices `[E, 1]`,
    updates `[E, C]`. -/
abbrev scatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

/-- Update `(e, q)` starts at the row its index names, read signed and not clamped … -/
theorem start_row : (scatterDims N E C wf).start (ix2 e q) idx 0 = (idx (ix2 e 0)).toInt := by
  unfold ScatterDims.start
  rw [dif_pos (show (0 : Fin 2) ∈ (scatterDims N E C wf).scatterDimsToOperandDims from List.mem_singleton.mpr rfl)]
  have hsi : (scatterDims N E C wf).siIdx (ix2 e q) ⟨List.idxOf (0 : Fin 2) (scatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
/-- … and at column 0 … -/
theorem start_col : (scatterDims N E C wf).start (ix2 e q) idx 1 = 0 := by
  unfold ScatterDims.start
  rw [dif_neg (show (1 : Fin 2) ∉ (scatterDims N E C wf).scatterDimsToOperandDims from by
    show (1 : Fin 2) ∉ [(0 : Fin 2)]; decide)]
/-- … its window coordinate is 0 on the rows … -/
theorem window_row : (scatterDims N E C wf).window (ix2 e q) 0 = 0 := by
  unfold ScatterDims.window
  rw [dif_neg (show (0 : Fin 2) ∉ (scatterDims N E C wf).sKept from by
    show (0 : Fin 2) ∉ (List.finRange 2).filter (fun a => a ∉ [(0 : Fin 2)]); decide)]
/-- … and its own column on the columns. -/
theorem window_col : (scatterDims N E C wf).window (ix2 e q) 1 = q.val := by
  unfold ScatterDims.window
  rw [dif_pos (show (1 : Fin 2) ∈ (scatterDims N E C wf).sKept from by
    show (1 : Fin 2) ∈ (List.finRange 2).filter (fun a => a ∉ [(0 : Fin 2)]); decide)]
  rfl

/-- Update `(e, q)` lands on `(r, p)` exactly when its index, read signed, is `r` and its column is `p`. -/
theorem resultIdx?_eq_some_iff (r : Fin N) (p : Fin C) :
    (scatterDims N E C wf).resultIdx? (ix2 e q) idx = some (ix2 r p) ↔ (idx (ix2 e 0)).toInt = (r.val : Int) ∧ q = p := by
  unfold ScatterDims.resultIdx?
  have hr := r.isLt
  have hq := q.isLt
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only [start_row, start_col, window_row, window_col] at h0 h1
      have hh := (h 0).1
      simp only [start_row, window_row] at hh
      refine ⟨?_, Fin.ext ?_⟩
      · have : ((idx (ix2 e 0)).toInt + ((0 : Nat) : Int)).toNat = r.val := h0
        omega
      · have : ((0 : Int) + ((q.val : Nat) : Int)).toNat = p.val := h1
        omega
    · rintro ⟨hs, rfl⟩
      funext a
      refine Fin.ext ?_
      match a with
      | ⟨0, _⟩ =>
        show ((scatterDims N E C wf).start (ix2 e q) idx 0 + ((scatterDims N E C wf).window (ix2 e q) 0 : Nat)).toNat = r.val
        rw [start_row, window_row, hs]; omega
      | ⟨1, _⟩ =>
        show ((scatterDims N E C wf).start (ix2 e q) idx 1 + ((scatterDims N E C wf).window (ix2 e q) 1 : Nat)).toNat = q.val
        rw [start_col, window_col]; omega
  · rename_i h
    constructor
    · intro hf; exact absurd hf (by simp)
    · rintro ⟨hs, rfl⟩
      refine absurd (fun a => ?_) h
      match a with
      | ⟨0, _⟩ =>
        show 0 ≤ (scatterDims N E C wf).start (ix2 e q) idx 0 + ((scatterDims N E C wf).window (ix2 e q) 0 : Nat)
          ∧ (scatterDims N E C wf).start (ix2 e q) idx 0 + ((scatterDims N E C wf).window (ix2 e q) 0 : Nat) < (N : Int)
        rw [start_row, window_row, hs]; omega
      | ⟨1, _⟩ =>
        show 0 ≤ (scatterDims N E C wf).start (ix2 e q) idx 1 + ((scatterDims N E C wf).window (ix2 e q) 1 : Nat)
          ∧ (scatterDims N E C wf).start (ix2 e q) idx 1 + ((scatterDims N E C wf).window (ix2 e q) 1 : Nat) < (C : Int)
        rw [start_col, window_col]; omega

/-- Entry `(r, p)` of the scatter-add over the extended reals: the operand's entry plus the sum of column `p` of the
    update rows whose index is `r`. -/
theorem scatterAdd_apply {φ : FTy} (x : FVec Ideal ⟨2, ![N, C]⟩ φ) (upd : FVec Ideal ⟨2, ![E, C]⟩ φ) (r : Fin N) (p : Fin C) :
    Host.scatterAdd (F := Ideal) (scatterDims N E C wf) x idx upd (ix2 r p)
      = x (ix2 r p) + ∑ e ∈ Finset.univ.filter (fun e : Fin E => (idx (ix2 e 0)).toInt = (r.val : Int)), upd (ix2 e p) := by
  unfold Host.scatterAdd
  rw [Ideal.hostScatterAdd_def]
  unfold Ideal.hostScatterAdd
  congr 1
  rw [Finset.sum_filter, sum_idx2, Finset.sum_filter]
  refine Finset.sum_congr rfl fun e _ => ?_
  simp only [resultIdx?_eq_some_iff]
  by_cases hs : (idx (ix2 e 0)).toInt = (r.val : Int)
  · simp [hs]
  · simp [hs]

end Scatter

/-- The row scatter-add commutes with a block of columns (of the operand, of the updates, of the result). -/
theorem scatterAdd_colSlice {N E C C' off w : Nat} {φ : FTy}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : FVec Ideal ⟨2, ![N, C]⟩ φ) (idx : IVec ⟨2, ![E, 1]⟩ w) (upd : FVec Ideal ⟨2, ![E, C]⟩ φ) :
    extractStridedSlice ⟨2, ![N, C']⟩ ![0, off] (Host.scatterAdd (F := Ideal) (scatterDims N E C wf) x idx upd) hNs
      = Host.scatterAdd (F := Ideal) (scatterDims N E C' wf') (extractStridedSlice ⟨2, ![N, C']⟩ ![0, off] x hNs) idx
          (extractStridedSlice ⟨2, ![E, C']⟩ ![0, off] upd hE) := by
  funext j
  obtain ⟨r, p, rfl⟩ : ∃ (r : Fin N) (p : Fin C'), j = ix2 r p := ⟨j 0, j 1, eq_ix2 j⟩
  have hp : off + p.val < C := by have := p.isLt; omega
  rw [colSlice_apply hNs _ r p hp, scatterAdd_apply wf, scatterAdd_apply wf', colSlice_apply hNs _ r p hp]
  congr 1
  refine Finset.sum_congr rfl fun e _ => ?_
  rw [colSlice_apply hE _ e p hp]

end RowOps

end
-- ==== Proof.LibVecOps.lean ====
/-
  A vector gathered and scatter-added at a column of indices, read at an index, and the one distributive law of the
  extended reals that a sum of scaled terms needs.

  A vector `x : [N]` gathered at a column `idx : [E, 1]` gives `[E]`: entry `e` of the result is entry
  `clamp(idx e)` of `x` (the index read signed and clamped into `[0, N - 1]`, the same clamp as for the rows of a
  matrix). A scatter-add of updates `u : [E]` at such a column into `x : [N]` adds to entry `r` every update `e`
  whose index, read signed and unclamped, is `r`; updates whose index is out of range are dropped.
  On the extended reals `(y + z) * c = y * c + z * c` holds for every `y`, `z` as soon as `c` is nonnegative and
  finite, so a finite sum of terms each scaled by such a `c` is the sum scaled by `c`.
-/
import Idealize.ShloMosaic.PureOps.Ideal
import Idealize.ShloMosaic.Lib.ValueIdx
import proofs.«413525_j72473278153004_2_alg».proof.Proof.LibRowOps

noncomputable section

open scoped BigOperators

namespace VecOps

open Idealize.ShloMosaic Idealize.ShloMosaic.ValueIdx

/-! ## Scaling a finite sum by a nonnegative finite factor -/

/-- A finite sum of terms each multiplied on the right by one nonnegative finite factor is the sum multiplied by
    the factor, whatever extended reals the terms are. -/
theorem sum_mul_of_nonneg_of_ne_top {ι : Type} (s : Finset ι) (f : ι → EReal) {c : EReal} (hc : 0 ≤ c) (hc' : c ≠ ⊤) :
    ∑ e ∈ s, f e * c = (∑ e ∈ s, f e) * c := by
  classical
  induction s using Finset.induction_on with
  | empty => simp
  | insert a s ha ih =>
    rw [Finset.sum_insert ha, Finset.sum_insert ha, ih, EReal.right_distrib_of_nonneg_of_ne_top hc hc']

/-! ## Sums over the indices of a vector -/

/-- The indices of a vector of length `n` are the numbers below `n`. -/
def idxEquiv1 {n : Nat} : (⟨1, ![n]⟩ : Shape).Idx ≃ Fin n where
  toFun j := j 0
  invFun a := ix1 a
  left_inv j := (eq_ix1 j).symm
  right_inv _ := rfl

/-- A sum over a vector's indices is the sum over the numbers below its length. -/
theorem sum_idx1 {M : Type*} [AddCommMonoid M] {n : Nat} (f : (⟨1, ![n]⟩ : Shape).Idx → M) :
    ∑ j, f j = ∑ a : Fin n, f (ix1 a) :=
  Fintype.sum_equiv idxEquiv1 _ _ fun j => by rw [show ix1 (idxEquiv1 j) = j from (eq_ix1 j).symm]

/-! ## The gather of a vector -/

section Gather
variable {α : Type}

/-- The dimension numbers of `x[idx]` over a vector: operand `[N]`, start indices `[E, 1]`, result `[E]`. -/
abbrev gatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gather is the vector at the clamped index `idx e`. -/
theorem gather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherDims N E wf) x idx (ix1 e) = x (ix1 (RowOps.clampRow N hN (idx (ix2 e 0)))) := by
  unfold Host.gather
  congr 1
  funext a
  refine Fin.ext ?_
  match a with
  | ⟨0, _⟩ =>
    show (gatherDims N E wf).start (ix1 e) idx 0 + (gatherDims N E wf).batchCoord (ix1 e) 0
      + (gatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (gatherDims N E wf).startIndexMap from List.mem_singleton.mpr rfl)]
    have hsi : (gatherDims N E wf).siIdx (ix1 e) ⟨List.idxOf (0 : Fin 1) (gatherDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Gather

/-! ## The scatter-add into a vector -/

section Scatter

/-- The dimension numbers of `x.at[idx].add(u)` over a vector: operand `[N]`, scatter indices `[E, 1]`, updates `[E]`. -/
abbrev scatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- Update `e` starts at the entry its index names, read signed and not clamped … -/
theorem start_entry : (scatterDims N E wf).start (ix1 e) idx 0 = (idx (ix2 e 0)).toInt := by
  unfold ScatterDims.start
  rw [dif_pos (show (0 : Fin 1) ∈ (scatterDims N E wf).scatterDimsToOperandDims from List.mem_singleton.mpr rfl)]
  have hsi : (scatterDims N E wf).siIdx (ix1 e) ⟨List.idxOf (0 : Fin 1) (scatterDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
/-- … and its window coordinate there is 0. -/
theorem window_entry : (scatterDims N E wf).window (ix1 e) 0 = 0 := by
  unfold ScatterDims.window
  rw [dif_neg (show (0 : Fin 1) ∉ (scatterDims N E wf).sKept from by
    show (0 : Fin 1) ∉ (List.finRange 1).filter (fun a => a ∉ [(0 : Fin 1)]); decide)]

/-- Update `e` lands on entry `r` exactly when its index, read signed, is `r`. -/
theorem resultIdx?_eq_some_iff (r : Fin N) :
    (scatterDims N E wf).resultIdx? (ix1 e) idx = some (ix1 r) ↔ (idx (ix2 e 0)).toInt = (r.val : Int) := by
  unfold ScatterDims.resultIdx?
  have hr := r.isLt
  split
  · rename_i h
    rw [Option.some.injEq]
    constructor
    · intro hf
      have h0 := congrArg (fun f : (⟨1, ![N]⟩ : Shape).Idx => (f 0).val) hf
      simp only [start_entry, window_entry] at h0
      have hh := (h 0).1
      simp only [start_entry, window_entry] at hh
      have : ((idx (ix2 e 0)).toInt + ((0 : Nat) : Int)).toNat = r.val := h0
      omega
    · intro hs
      funext a
      refine Fin.ext ?_
      match a with
      | ⟨0, _⟩ =>
        show ((scatterDims N E wf).start (ix1 e) idx 0 + ((scatterDims N E wf).window (ix1 e) 0 : Nat)).toNat = r.val
        rw [start_entry, window_entry, hs]; omega
  · rename_i h
    constructor
    · intro hf; exact absurd hf (by simp)
    · intro hs
      refine absurd (fun a => ?_) h
      match a with
      | ⟨0, _⟩ =>
        show 0 ≤ (scatterDims N E wf).start (ix1 e) idx 0 + ((scatterDims N E wf).window (ix1 e) 0 : Nat)
          ∧ (scatterDims N E wf).start (ix1 e) idx 0 + ((scatterDims N E wf).window (ix1 e) 0 : Nat) < (N : Int)
        rw [start_entry, window_entry, hs]; omega

/-- Entry `r` of the scatter-add over the extended reals: the operand's entry plus the sum of the updates whose
    index is `r`. -/
theorem scatterAdd_apply {φ : FTy} (x : FVec Ideal ⟨1, ![N]⟩ φ) (upd : FVec Ideal ⟨1, ![E]⟩ φ) (r : Fin N) :
    Host.scatterAdd (F := Ideal) (scatterDims N E wf) x idx upd (ix1 r)
      = x (ix1 r) + ∑ e ∈ Finset.univ.filter (fun e : Fin E => (idx (ix2 e 0)).toInt = (r.val : Int)), upd (ix1 e) := by
  unfold Host.scatterAdd
  rw [Ideal.hostScatterAdd_def]
  unfold Ideal.hostScatterAdd
  congr 1
  rw [Finset.sum_filter, sum_idx1, Finset.sum_filter]
  refine Finset.sum_congr rfl fun e _ => ?_
  simp only [resultIdx?_eq_some_iff]

end Scatter

end VecOps

end
-- ==== Proof.BridgeMath.lean ====
/-
  The pointwise facts the comparison of the two programs rests on, over the extended reals.

  * The inverse square root of a positive extended real is nonnegative and finite (at plus infinity it is zero).
  * A one-hot sum picks one entry: for a category word `x` with `0 ≤ x < 28`, the sum over the 28 table rows of
    `hot x k * f k` is `f x`, because zero times anything is zero on the extended reals.
  * For such a word, clamping it into `[0, 27]` changes nothing.
  * The aggregation law: if every term `K e` is `H e * s e` and `t` is nonnegative and finite, then
    the sum of `H e * (s e * t)` is the sum of `K e`, times `t`.
-/
import proofs.«413525_j72473278153004_2_alg».proof.Proof.Spec
import proofs.«413525_j72473278153004_2_alg».proof.Proof.LibRowOps
import proofs.«413525_j72473278153004_2_alg».proof.Proof.LibVecOps

noncomputable section

open scoped BigOperators

namespace Gcn

open Idealize.ShloMosaic Idealize.ShloMosaic.ValueIdx

/-- The inverse square root of a positive extended real is nonnegative and finite. -/
theorem rsqrt_nonneg_ne_top {x : EReal} (hx : 0 < x) : 0 ≤ Ideal.rsqrt x ∧ Ideal.rsqrt x ≠ ⊤ := by
  induction x using EReal.rec with
  | bot => exact absurd hx (by simp)
  | top => exact ⟨by rw [Ideal.rsqrt_top], by rw [Ideal.rsqrt_top]; exact EReal.zero_ne_top⟩
  | coe r =>
    have hr : 0 < r := by exact_mod_cast hx
    rw [Ideal.rsqrt_coe, if_neg (not_lt.mpr hr.le), if_neg hr.ne']
    exact ⟨by exact_mod_cast inv_nonneg.mpr (Real.sqrt_nonneg r), EReal.coe_ne_top _⟩

/-- A word read signed as a nonnegative number is that number read unsigned. -/
theorem toNat_of_toInt_nonneg (x : BitVec 32) (h0 : 0 ≤ x.toInt) : (x.toNat : Int) = x.toInt := by
  have h := BitVec.toInt_eq_toNat_cond x
  have hl := x.isLt
  split at h <;> omega

/-- The one-hot weight of row `k` for a nonnegative word is one exactly when the word's number is `k`. -/
theorem hot_eq (x : BitVec 32) (h0 : 0 ≤ x.toInt) (k : Fin 28) :
    hot x k = if x.toInt.toNat = k.val then 1 else 0 := by
  unfold hot
  have hn := toNat_of_toInt_nonneg x h0
  have hk := k.isLt
  by_cases hc : x.toInt.toNat = k.val
  · rw [if_pos hc, if_pos]
    apply BitVec.eq_of_toNat_eq
    rw [BitVec.toNat_ofNat, Nat.mod_eq_of_lt (by omega)]
    omega
  · rw [if_neg hc, if_neg]
    intro he
    apply hc
    have := congrArg BitVec.toNat he
    rw [BitVec.toNat_ofNat, Nat.mod_eq_of_lt (by omega)] at this
    omega

/-- A one-hot sum over the 28 rows picks the row the word names. -/
theorem hot_sum (x : BitVec 32) (h0 : 0 ≤ x.toInt) (h1 : x.toInt < 28) (f : Fin 28 → EReal) :
    ∑ k : Fin 28, hot x k * f k = f ⟨x.toInt.toNat, by omega⟩ := by
  rw [Finset.sum_eq_single (⟨x.toInt.toNat, by omega⟩ : Fin 28)]
  · rw [hot_eq x h0, if_pos rfl, one_mul]
  · intro k _ hk
    rw [hot_eq x h0, if_neg (fun h => hk (Fin.ext h.symm)), zero_mul]
  · intro h; exact absurd (Finset.mem_univ _) h

/-- Clamping a word that already names one of the 28 rows changes nothing. -/
theorem clampRow_of_range (x : BitVec 32) (h0 : 0 ≤ x.toInt) (h1 : x.toInt < 28) :
    RowOps.clampRow 28 (by decide) x = ⟨x.toInt.toNat, by omega⟩ := by
  unfold RowOps.clampRow
  apply Fin.ext
  show min x.toInt.toNat (28 - 1) = x.toInt.toNat
  omega

/-- The aggregation law: terms scaled by their own factor and by one common nonnegative finite factor sum to the
    sum of the once-scaled terms, times the common factor. -/
theorem agg_sum {ι : Type} (S : Finset ι) (H K s : ι → EReal) {t : EReal} (ht : 0 ≤ t) (ht' : t ≠ ⊤)
    (hK : ∀ e ∈ S, K e = H e * s e) :
    ∑ e ∈ S, H e * (s e * t) = (∑ e ∈ S, K e) * t := by
  rw [← VecOps.sum_mul_of_nonneg_of_ne_top S K ht ht']
  refine Finset.sum_congr rfl fun e he => ?_
  rw [hK e he, mul_assoc]

end Gcn

end
-- ==== Proof.BridgeEmbed.lean ====
/-
  The per-node weight and the first dense stage, kernel side against reference side, over the extended reals.

  The weight of a node is zero where its degree is not positive and the inverse square root of the degree where it is:
  in both cases nonnegative and finite. The kernel's first stage is a one-hot sum over the 28 rows of the combined
  table (the embedding table times the first weights), scaled by the weight; the reference gathers the embedding
  row the category names and multiplies it by the first weights. For a category in range the one-hot sum picks the
  named row of the combined table, the gather's wrap and clamp change nothing, and a row of a product is the product
  of the row: the kernel's entry is the reference's entry times the node's weight.
-/
import proofs.«413525_j72473278153004_2_alg».proof.Proof.KTerm
import proofs.«413525_j72473278153004_2_alg».proof.Proof.RefRead
import proofs.«413525_j72473278153004_2_alg».proof.Proof.BridgeMath
import proofs.«413525_j72473278153004_2_alg».proof.Proof.LibRowOps
import proofs.«413525_j72473278153004_2_alg».proof.Proof.LibVecOps
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge

open Cert.KernelIdeal Cert.KernelIdeal.Facts₀ Cert.KernelIdeal.Facts Idealize.ShloMosaic Idealize.ShloMosaic.ValueIdx
open Cert.KernelIdeal.KTerm
open Cert.ReferenceIdeal.ReadP

variable (x0 : IVec S100000 32) (x1 : IVec S2x1250000 32) (x3 : IVec S100000 32)
  (x4 : FVec Ideal S28x64 .f32) (x5 : FVec Ideal S64x64 .f32) (x6 : FVec Ideal S64 .f32) (x7 : FVec Ideal S64x64 .f32)
  (x8 : FVec Ideal S64 .f32) (x9 : FVec Ideal S64x1 .f32) (x10 : FVec Ideal S1 .f32)

/-- A vector of 100000 entries reshaped to a column, read at row `v`: the vector's entry `v`. -/
theorem col_apply {α : Type} (y : S100000.Idx → α) (v : Fin 100000) :
    shapeCast S100000x1 y shapeCasts_S100000_S100000x1 (ix2 v 0) = y (ix1 v) :=
  shapeCast_apply y shapeCasts_S100000_S100000x1 (ix2 v 0) (ix1 v)
    (by rewrite [Shape.rowMajor_val_one, Shape.rowMajor_val_two]; show v.val = v.val * 1 + 0; omega)

/-! The combined table's operand indices at an output index and a contraction index, one coordinate each. -/

theorem lhs_comb_0 (i : S28x64.Idx) (q : Cert.KernelIdeal.dot_S28x64_S64x64_S28x64_1_0_0_1_n_n.contr.Idx) :
    (Cert.KernelIdeal.dot_S28x64_S64x64_S28x64_1_0_0_1_n_n.lhsIdx i q 0).val = (i 0).val := by
  unfold DotDims.lhsIdx
  rw [dif_neg (show ¬(0 : Fin S28x64.rank) ∈ Cert.KernelIdeal.dot_S28x64_S64x64_S28x64_1_0_0_1_n_n.lhsBatch by decide), dif_pos (show (0 : Fin S28x64.rank) ∈ Cert.KernelIdeal.dot_S28x64_S64x64_S28x64_1_0_0_1_n_n.lhsNonContracting by decide)]
  rfl
theorem lhs_comb_1 (i : S28x64.Idx) (q : Cert.KernelIdeal.dot_S28x64_S64x64_S28x64_1_0_0_1_n_n.contr.Idx) :
    (Cert.KernelIdeal.dot_S28x64_S64x64_S28x64_1_0_0_1_n_n.lhsIdx i q 1).val = (q ⟨0, by decide⟩).val :=
  Cert.KernelIdeal.dot_S28x64_S64x64_S28x64_1_0_0_1_n_n.lhsIdx_val_of_single rfl i q
theorem rhs_comb_0 (i : S28x64.Idx) (q : Cert.KernelIdeal.dot_S28x64_S64x64_S28x64_1_0_0_1_n_n.contr.Idx) :
    (Cert.KernelIdeal.dot_S28x64_S64x64_S28x64_1_0_0_1_n_n.rhsIdx i q 0).val = (q ⟨0, by decide⟩).val :=
  Cert.KernelIdeal.dot_S28x64_S64x64_S28x64_1_0_0_1_n_n.rhsIdx_val_of_single rfl i q
theorem rhs_comb_1 (i : S28x64.Idx) (q : Cert.KernelIdeal.dot_S28x64_S64x64_S28x64_1_0_0_1_n_n.contr.Idx) :
    (Cert.KernelIdeal.dot_S28x64_S64x64_S28x64_1_0_0_1_n_n.rhsIdx i q 1).val = (i 1).val := by
  unfold DotDims.rhsIdx
  rw [dif_neg (show ¬(1 : Fin S64x64.rank) ∈ Cert.KernelIdeal.dot_S28x64_S64x64_S28x64_1_0_0_1_n_n.rhsBatch by decide), dif_pos (show (1 : Fin S64x64.rank) ∈ Cert.KernelIdeal.dot_S28x64_S64x64_S28x64_1_0_0_1_n_n.rhsNonContracting by decide)]
  rfl

/-- The combined table at row `k`, column `j`: row `k` of the embedding table times column `j` of the first weights. -/
theorem comb_apply (k : Fin 28) (j : Fin 64) :
    Host.dotGeneral (F := Ideal) Cert.KernelIdeal.dot_S28x64_S64x64_S28x64_1_0_0_1_n_n none x4 x5 (ix2 k j)
      = ∑ i : Fin 64, x4 (ix2 k i) * x5 (ix2 i j) := by
  simp only [Host.dotGeneral]
  rw [Ideal.dotGeneral_apply, ← Equiv.sum_comp (ValueIdx.contrEquiv1 Cert.KernelIdeal.dot_S28x64_S64x64_S28x64_1_0_0_1_n_n 64 rfl rfl).symm]
  refine Finset.sum_congr rfl fun i _ => ?_
  have hi := ValueIdx.contrEquiv1_symm_val Cert.KernelIdeal.dot_S28x64_S64x64_S28x64_1_0_0_1_n_n 64 rfl rfl i
  have el : Cert.KernelIdeal.dot_S28x64_S64x64_S28x64_1_0_0_1_n_n.lhsIdx (ix2 k j) ((ValueIdx.contrEquiv1 Cert.KernelIdeal.dot_S28x64_S64x64_S28x64_1_0_0_1_n_n 64 rfl rfl).symm i) = ix2 k i := funext fun a => Fin.ext (by
    match a with
    | ⟨0, _⟩ => exact lhs_comb_0 _ _
    | ⟨1, _⟩ => exact (lhs_comb_1 _ _).trans hi)
  have er : Cert.KernelIdeal.dot_S28x64_S64x64_S28x64_1_0_0_1_n_n.rhsIdx (ix2 k j) ((ValueIdx.contrEquiv1 Cert.KernelIdeal.dot_S28x64_S64x64_S28x64_1_0_0_1_n_n 64 rfl rfl).symm i) = ix2 i j := funext fun a => Fin.ext (by
    match a with
    | ⟨0, _⟩ => exact (rhs_comb_0 _ _).trans hi
    | ⟨1, _⟩ => exact rhs_comb_1 _ _)
  rw [el, er]

/-- The reference wraps a negative category by adding 28; a nonnegative one it leaves as it is. -/
theorem wrap_of_nonneg (v : Fin 100000) (h0 : 0 ≤ (x0 (ix1 v)).toInt) :
    val_main_v34 (F := Ideal) x0 (ix1 v) = x0 (ix1 v) := by
  rw [val_main_v34_apply, val_main_v31_apply, val_main_v30_apply, val_main_c_6_apply]
  have hs : (x0 (ix1 v)).slt 0#32 = false := by
    simp only [BitVec.slt, BitVec.toInt_zero, decide_eq_false_iff_not, not_lt]
    exact h0
  have hb : IntOp.cmpi .slt (x0 (ix1 v)) 0#32 = 0#1 := by
    show BitVec.ofBool ((x0 (ix1 v)).slt 0#32) = 0#1
    rw [hs]; rfl
  rw [hb, select_zero]

/-- For a category in range the reference's gathered row at node `v` is the embedding table's row the category names. -/
theorem gathered_row (v : Fin 100000) (h0 : 0 ≤ (x0 (ix1 v)).toInt) (h1 : (x0 (ix1 v)).toInt < 28) (k : Fin 64) :
    val_main_v36 (F := Ideal) x0 x4 (ix2 v k) = x4 (ix2 (⟨(x0 (ix1 v)).toInt.toNat, by omega⟩ : Fin 28) k) := by
  unfold val_main_v36
  have h := RowOps.gather_apply (N := 28) (E := 100000) (C := 64) (by decide)
    Cert.ReferenceIdeal.Facts₀.gather_S28x64_S100000x1_S100000x64_1_0_n_n_0_1_164_wf x4 (val_main_v35 (F := Ideal) x0) v k
  refine h.trans ?_
  have hi : idx_main_v35 (ix2 v 0) = ix1 v := funext fun a => Fin.ext (by match a with | ⟨0, _⟩ => rfl)
  rw [val_main_v35_apply, hi, wrap_of_nonneg x0 v h0, Gcn.clampRow_of_range _ h0 h1]

/-- The per-node weight is nonnegative and finite. -/
theorem dinv_ok (v : Fin 100000) : 0 ≤ val_main_v14 (F := Ideal) x1 (ix1 v) ∧ val_main_v14 (F := Ideal) x1 (ix1 v) ≠ ⊤ := by
  rw [val_main_v14_apply, val_main_v12_apply, val_main_v13_apply]
  have hz11 : val_main_v11 (F := Ideal) (ix1 v) = 0 := by
    rw [val_main_v11_apply, val_main_cst_1_apply]; exact Ideal.ofBits_zero_f32
  have hzc : val_main_call0_v1 (F := Ideal) (ix1 v) = 0 := by
    rw [val_main_call0_v1_apply, val_main_call0_v0_apply, val_main_cst_2_apply]; exact Ideal.ofBits_zero_f32
  rw [hz11, hzc]
  generalize val_main_v10 (F := Ideal) x1 (ix1 v) = deg
  show 0 ≤ Scalar.select (Ideal.cmp .ogt deg 0) (Ideal.rsqrt deg) 0 ∧ Scalar.select (Ideal.cmp .ogt deg 0) (Ideal.rsqrt deg) 0 ≠ ⊤
  by_cases h : (0 : EReal) < deg
  · have hb : Ideal.cmp .ogt deg 0 = 1#1 := by unfold Ideal.cmp; simp [h]
    rw [hb, select_one]
    exact Gcn.rsqrt_nonneg_ne_top h
  · have hb : Ideal.cmp .ogt deg 0 = 0#1 := by unfold Ideal.cmp; simp [h]
    rw [hb, select_zero]
    exact ⟨le_refl _, EReal.zero_ne_top⟩

/-- The weight column holds the per-node weight. -/
theorem dcol_apply (v : Fin 100000) : dcol x1 (ix2 v 0) = val_main_v14 (F := Ideal) x1 (ix1 v) := by
  unfold dcol
  exact col_apply _ v

/-- For categories in range, the kernel's first stage is the reference's first product, row by row, times the node's weight. -/
theorem e1_eq (hx : ∀ v : Fin 100000, 0 ≤ (x0 (ix1 v)).toInt ∧ (x0 (ix1 v)).toInt < 28) (v : Fin 100000) (j : Fin 64) :
    e1 x0 x1 x4 x5 (ix2 v j) = val_main_v37 (F := Ideal) x0 x4 x5 (ix2 v j) * val_main_v14 (F := Ideal) x1 (ix1 v) := by
  obtain ⟨h0, h1⟩ := hx v
  unfold e1
  show Gcn.embedRow _ _ _ v j = _
  unfold Gcn.embedRow
  rw [col_apply, dcol_apply, Gcn.hot_sum _ h0 h1, comb_apply]
  refine congrArg (· * val_main_v14 (F := Ideal) x1 (ix1 v)) ?_
  rw [val_main_v37_apply]
  refine Finset.sum_congr rfl fun k _ => ?_
  have el : lidx_main_v37 (ix2 v j) k = ix2 v k := funext fun a => Fin.ext (by
    match a with
    | ⟨0, _⟩ => rfl
    | ⟨1, _⟩ => rfl)
  have er : ridx_main_v37 (ix2 v j) k = ix2 k j := funext fun a => Fin.ext (by
    match a with
    | ⟨0, _⟩ => rfl
    | ⟨1, _⟩ => rfl)
  rw [el, er, gathered_row x0 x4 v h0 h1 k]

end Cert.Bridge

end
-- ==== Proof.BridgeAgg.lean ====
/-
  One aggregation, kernel side against reference side, over the extended reals.

  The reference gathers the rows of `H` at the wrapped source column, multiplies row `e` by the product of the source
  node's and the target node's weights, and scatter-adds at the target column. The kernel side gathers the rows of
  `K`, which are the rows of `H` already scaled by their own node's weight, and scatter-adds them unscaled. An edge
  that lands on row `r` has target `r`, so its target weight is row `r`'s weight, a common nonnegative finite factor
  of every term of the sum: the reference's row is the kernel side's row times that weight.
-/
import proofs.«413525_j72473278153004_2_alg».proof.Proof.KTerm
import proofs.«413525_j72473278153004_2_alg».proof.Proof.RefRead
import proofs.«413525_j72473278153004_2_alg».proof.Proof.BridgeMath
import proofs.«413525_j72473278153004_2_alg».proof.Proof.LibRowOps
import proofs.«413525_j72473278153004_2_alg».proof.Proof.LibVecOps
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge

open Cert.KernelIdeal Cert.KernelIdeal.Facts₀ Cert.KernelIdeal.Facts Idealize.ShloMosaic Idealize.ShloMosaic.ValueIdx
open Cert.KernelIdeal.KTerm
open Cert.ReferenceIdeal.ReadP

variable (x0 : IVec S100000 32) (x1 : IVec S2x1250000 32) (x3 : IVec S100000 32)
  (x4 : FVec Ideal S28x64 .f32) (x5 : FVec Ideal S64x64 .f32) (x6 : FVec Ideal S64 .f32) (x7 : FVec Ideal S64x64 .f32)
  (x8 : FVec Ideal S64 .f32) (x9 : FVec Ideal S64x1 .f32) (x10 : FVec Ideal S1 .f32)

/-- A node number as the programs wrap it: a negative number has the node count added. -/
def agg_wrapWord (s : BitVec 32) : BitVec 32 := Scalar.select (IntOp.cmpi .slt s 0#32) (IntOp.addi s 100000#32) s

/-- A nonnegative number is not wrapped. -/
theorem agg_wrap_nonneg (t : BitVec 32) (h : 0 ≤ t.toInt) : agg_wrapWord t = t := by
  unfold agg_wrapWord IntOp.cmpi
  show Scalar.select (BitVec.ofBool (decide (t.toInt < (0#32 : BitVec 32).toInt))) _ _ = _
  rw [decide_eq_false (by rw [show (0#32 : BitVec 32).toInt = 0 from rfl]; omega)]
  exact select_zero _ _

/-- A number that names row `r` clamps to `r`. -/
theorem agg_clamp_eq (t : BitVec 32) (r : Fin 100000) (h : t.toInt = (r.val : Int)) :
    RowOps.clampRow 100000 (by decide) t = r := by
  unfold RowOps.clampRow
  apply Fin.ext
  show min t.toInt.toNat (100000 - 1) = r.val
  have := r.isLt
  omega

/-- The kernel side's wrapped source column at edge `e`: the source row's entry, wrapped. -/
theorem agg_wrapCol_apply (s : IVec S1350000 32) (e : Fin 1350000) :
    wrapCol s (ix2 e (0 : Fin 1)) = agg_wrapWord (s (ix1 e)) := by
  unfold wrapCol
  refine (broadcastInDim_apply _ bcast_S1350000_S1350000x1_0 _ (ix2 e (0 : Fin 1)) (ix1 e) (fun a => match a with
    | ⟨0, _⟩ => by show e.val = if (1350000 : Nat) = 1 then 0 else e.val; rw [if_neg (by decide)])).trans ?_
  rfl

/-- The kernel side's target column at edge `e`: the target row's entry. -/
theorem agg_dstCol_apply (t : IVec S1350000 32) (e : Fin 1350000) :
    dstCol t (ix2 e (0 : Fin 1)) = t (ix1 e) := by
  unfold dstCol
  exact broadcastInDim_apply _ bcast_S1350000_S1350000x1_0 _ (ix2 e (0 : Fin 1)) (ix1 e) (fun a => match a with
    | ⟨0, _⟩ => by show e.val = if (1350000 : Nat) = 1 then 0 else e.val; rw [if_neg (by decide)])

/-- A vector `[n]` laid out as a column `[n, 1]` reads, at `(e, 0)`, its entry `e`. -/
theorem agg_toCol_apply {α : Type} {n : ℕ} (hn : n ≠ 1) (h : (⟨1, ![n]⟩ : Shape).BroadcastsInDim ⟨2, ![n, 1]⟩ ![0])
    (y : (⟨1, ![n]⟩ : Shape).Idx → α) (e : Fin n) :
    broadcastInDim ⟨2, ![n, 1]⟩ ![0] h y (ix2 e (0 : Fin 1)) = y (ix1 e) :=
  broadcastInDim_apply _ h y (ix2 e (0 : Fin 1)) (ix1 e) (fun a => match a with
    | ⟨0, _⟩ => by show e.val = if n = 1 then 0 else e.val; rw [if_neg hn])

/-- A column `[n, 1]` repeated along `m` columns reads, at `(e, p)`, its entry `(e, 0)`. -/
theorem agg_colRepeat_apply {α : Type} {n m : ℕ} (hn : n ≠ 1) (h : (⟨2, ![n, 1]⟩ : Shape).BroadcastsInDim ⟨2, ![n, m]⟩ ![0, 1])
    (y : (⟨2, ![n, 1]⟩ : Shape).Idx → α) (e : Fin n) (p : Fin m) :
    broadcastInDim ⟨2, ![n, m]⟩ ![0, 1] h y (ix2 e p) = y (ix2 e (0 : Fin 1)) :=
  broadcastInDim_apply _ h y (ix2 e p) (ix2 e (0 : Fin 1)) (fun a => match a with
    | ⟨0, _⟩ => by show e.val = if n = 1 then 0 else e.val; rw [if_neg hn]
    | ⟨1, _⟩ => by show 0 = if (1 : ℕ) = 1 then 0 else p.val; rw [if_pos rfl])

/-- The reference's wrapped source column of the first layer at edge `e`. -/
theorem agg_src1_apply (e : Fin 1350000) :
    val_main_v43 (F := Ideal) x1 (ix2 e (0 : Fin 1)) = agg_wrapWord (val_main_v3 (F := Ideal) x1 (ix1 e)) := by
  unfold val_main_v43
  refine (agg_toCol_apply (by decide) _ _ e).trans ?_
  unfold val_main_v42 val_main_v39 val_main_v41
  generalize val_main_v3 (F := Ideal) x1 = s
  rfl

/-- The reference's wrapped source column of the second layer at edge `e`: the same word. -/
theorem agg_src2_apply (e : Fin 1350000) :
    val_main_v61 (F := Ideal) x1 (ix2 e (0 : Fin 1)) = agg_wrapWord (val_main_v3 (F := Ideal) x1 (ix1 e)) := by
  unfold val_main_v61
  refine (agg_toCol_apply (by decide) _ _ e).trans ?_
  unfold val_main_v60 val_main_v57 val_main_v59
  generalize val_main_v3 (F := Ideal) x1 = s
  rfl

/-- The reference's target column at edge `e`, in either layer: the target row's entry, unwrapped. -/
theorem agg_dst1_apply (e : Fin 1350000) :
    val_main_v49 (F := Ideal) x1 (ix2 e (0 : Fin 1)) = val_main_v6 (F := Ideal) x1 (ix1 e) := by
  unfold val_main_v49
  exact agg_toCol_apply (by decide) _ _ e

theorem agg_dst2_apply (e : Fin 1350000) :
    val_main_v67 (F := Ideal) x1 (ix2 e (0 : Fin 1)) = val_main_v6 (F := Ideal) x1 (ix1 e) := by
  unfold val_main_v67
  exact agg_toCol_apply (by decide) _ _ e

/-- The array either layer's scatter adds into is zero everywhere. -/
theorem agg_zeros1_apply (r : Fin 100000) (p : Fin 64) : val_main_v48 (F := Ideal) (ix2 r p) = 0 := by
  rw [val_main_v48_apply, val_main_cst_10_apply]
  exact Ideal.ofBits_zero_f32

theorem agg_zeros2_apply (r : Fin 100000) (p : Fin 64) : val_main_v66 (F := Ideal) (ix2 r p) = 0 := by
  rw [val_main_v66_apply, val_main_cst_13_apply]
  exact Ideal.ofBits_zero_f32

/-- The weight of the node a word names, the word wrapped and clamped as the gathers do. -/
def agg_weightAt (t : BitVec 32) : EReal :=
  val_main_v14 (F := Ideal) x1 (ix1 (RowOps.clampRow 100000 (by decide) (agg_wrapWord t)))

/-- The product of the two gathered weights of edge `e`: its source node's and its target node's. -/
theorem agg_edgeScale_apply (e : Fin 1350000) :
    val_main_v29 (F := Ideal) x1 (ix1 e)
      = agg_weightAt x1 (val_main_v3 (F := Ideal) x1 (ix1 e)) * agg_weightAt x1 (val_main_v6 (F := Ideal) x1 (ix1 e)) := by
  rw [val_main_v29_apply]
  unfold val_main_v21 val_main_v28
  have h1 := VecOps.gather_apply (N := 100000) (E := 1350000) (by decide)
    Cert.ReferenceIdeal.Facts₀.gather_S100000_S1350000x1_S1350000_n_0_n_n_0_1_1_wf (val_main_v14 (F := Ideal) x1) (val_main_v20 (F := Ideal) x1) e
  have h2 := VecOps.gather_apply (N := 100000) (E := 1350000) (by decide)
    Cert.ReferenceIdeal.Facts₀.gather_S100000_S1350000x1_S1350000_n_0_n_n_0_1_1_wf (val_main_v14 (F := Ideal) x1) (val_main_v27 (F := Ideal) x1) e
  have e1 : val_main_v20 (F := Ideal) x1 (ix2 e (0 : Fin 1)) = agg_wrapWord (val_main_v3 (F := Ideal) x1 (ix1 e)) := by
    unfold val_main_v20
    refine (agg_toCol_apply (by decide) _ _ e).trans ?_
    unfold val_main_v19 val_main_v16 val_main_v18
    generalize val_main_v3 (F := Ideal) x1 = s
    rfl
  have e2 : val_main_v27 (F := Ideal) x1 (ix2 e (0 : Fin 1)) = agg_wrapWord (val_main_v6 (F := Ideal) x1 (ix1 e)) := by
    unfold val_main_v27
    refine (agg_toCol_apply (by decide) _ _ e).trans ?_
    unfold val_main_v26 val_main_v23 val_main_v25
    generalize val_main_v6 (F := Ideal) x1 = s
    rfl
  rw [e1] at h1
  rw [e2] at h2
  exact congrArg₂ (· * ·) h1 h2

/-- The scale of the gathered rows at `(e, p)`, in either layer: the edge's two weights multiplied. -/
theorem agg_scale1_apply (e : Fin 1350000) (p : Fin 64) :
    val_main_v46 (F := Ideal) x1 (ix2 e p)
      = agg_weightAt x1 (val_main_v3 (F := Ideal) x1 (ix1 e)) * agg_weightAt x1 (val_main_v6 (F := Ideal) x1 (ix1 e)) := by
  unfold val_main_v46
  refine (agg_colRepeat_apply (by decide) _ _ e p).trans ?_
  unfold val_main_v45
  refine (agg_toCol_apply (by decide) _ _ e).trans ?_
  exact agg_edgeScale_apply x1 e

theorem agg_scale2_apply (e : Fin 1350000) (p : Fin 64) :
    val_main_v64 (F := Ideal) x1 (ix2 e p)
      = agg_weightAt x1 (val_main_v3 (F := Ideal) x1 (ix1 e)) * agg_weightAt x1 (val_main_v6 (F := Ideal) x1 (ix1 e)) := by
  unfold val_main_v64
  refine (agg_colRepeat_apply (by decide) _ _ e p).trans ?_
  unfold val_main_v63
  refine (agg_toCol_apply (by decide) _ _ e).trans ?_
  exact agg_edgeScale_apply x1 e

/-- One aggregation over any zeros, target column, source column and scale that read as the two layers' do. -/
theorem agg_of (Z : FVec Ideal S100000x64 .f32) (dst src : IVec S1350000x1 32) (sc : FVec Ideal S1350000x64 .f32)
    (hZ : ∀ (r : Fin 100000) (p : Fin 64), Z (ix2 r p) = 0)
    (hdst : ∀ e : Fin 1350000, dst (ix2 e (0 : Fin 1)) = val_main_v6 (F := Ideal) x1 (ix1 e))
    (hsrc : ∀ e : Fin 1350000, src (ix2 e (0 : Fin 1)) = agg_wrapWord (val_main_v3 (F := Ideal) x1 (ix1 e)))
    (hsc : ∀ (e : Fin 1350000) (p : Fin 64), sc (ix2 e p)
      = agg_weightAt x1 (val_main_v3 (F := Ideal) x1 (ix1 e)) * agg_weightAt x1 (val_main_v6 (F := Ideal) x1 (ix1 e)))
    (H : FVec Ideal S100000x64 .f32) (K : FVec Ideal S100000x64 .bf16)
    (hK : ∀ (v : Fin 100000) (j : Fin 64), K (ix2 v j) = H (ix2 v j) * val_main_v14 (F := Ideal) x1 (ix1 v))
    (hd : ∀ v : Fin 100000, 0 ≤ val_main_v14 (F := Ideal) x1 (ix1 v) ∧ val_main_v14 (F := Ideal) x1 (ix1 v) ≠ ⊤)
    (r : Fin 100000) (p : Fin 64) :
    Host.scatterAdd Cert.ReferenceIdeal.scatter_S100000x64_S1350000x1_S1350000x64_1_0_0_1 Z dst
        (mulf (Host.gather Cert.ReferenceIdeal.gather_S100000x64_S1350000x1_S1350000x64_1_0_n_n_0_1_164 H src) sc) (ix2 r p)
      = aggK (F := Ideal) (val_main_v3 (F := Ideal) x1) (val_main_v6 (F := Ideal) x1) K (ix2 r p) * val_main_v14 (F := Ideal) x1 (ix1 r) := by
  have hL := RowOps.scatterAdd_apply (N := 100000) (E := 1350000) (C := 64)
    Cert.ReferenceIdeal.Facts₀.scatter_S100000x64_S1350000x1_S1350000x64_1_0_0_1_wf dst Z
    (mulf (Host.gather Cert.ReferenceIdeal.gather_S100000x64_S1350000x1_S1350000x64_1_0_n_n_0_1_164 H src) sc) r p
  refine hL.trans ?_
  unfold aggK
  have hR := RowOps.scatterAdd_apply (N := 100000) (E := 1350000) (C := 64)
    Cert.KernelIdeal.Facts₀.scatter_S100000x64_S1350000x1_S1350000x64_1_0_0_1_wf (dstCol (val_main_v6 (F := Ideal) x1))
    (broadcastInDim S100000x64 ![] bcast_S_S100000x64 (constant (F := Ideal) S_ .f32 0x00000000#32))
    (extf .f32 (Host.gather gather_S100000x64_S1350000x1_S1350000x64_1_0_n_n_0_1_164 K (wrapCol (val_main_v3 (F := Ideal) x1))) bitsLt_bf16_f32) r p
  refine Eq.trans ?_ (congrArg (· * val_main_v14 (F := Ideal) x1 (ix1 r)) hR.symm)
  have hZK : broadcastInDim S100000x64 ![] bcast_S_S100000x64 (constant (F := Ideal) S_ .f32 0x00000000#32) (ix2 r p) = 0 :=
    (broadcastInDim_apply _ bcast_S_S100000x64 _ (ix2 r p) (fun a => a.elim0) (fun a => a.elim0)).trans Ideal.ofBits_zero_f32
  rw [hZ, hZK, zero_add, zero_add]
  simp only [hdst, agg_dstCol_apply]
  unfold agg_weightAt at hsc
  have hLterm : ∀ e ∈ Finset.univ.filter (fun e : Fin 1350000 => (val_main_v6 (F := Ideal) x1 (ix1 e)).toInt = (r.val : Int)),
      mulf (Host.gather Cert.ReferenceIdeal.gather_S100000x64_S1350000x1_S1350000x64_1_0_n_n_0_1_164 H src) sc (ix2 e p)
        = H (ix2 (RowOps.clampRow 100000 (by decide) (agg_wrapWord (val_main_v3 (F := Ideal) x1 (ix1 e)))) p)
          * (val_main_v14 (F := Ideal) x1 (ix1 (RowOps.clampRow 100000 (by decide) (agg_wrapWord (val_main_v3 (F := Ideal) x1 (ix1 e)))))
            * val_main_v14 (F := Ideal) x1 (ix1 r)) := by
    intro e he
    have ht : (val_main_v6 (F := Ideal) x1 (ix1 e)).toInt = (r.val : Int) := (Finset.mem_filter.mp he).2
    have hg := RowOps.gather_apply (N := 100000) (E := 1350000) (C := 64) (by decide)
      Cert.ReferenceIdeal.Facts₀.gather_S100000x64_S1350000x1_S1350000x64_1_0_n_n_0_1_164_wf H src e p
    rw [hsrc] at hg
    rw [mulf_apply, hsc]
    refine congrArg₂ (· * ·) hg ?_
    rw [agg_wrap_nonneg (val_main_v6 (F := Ideal) x1 (ix1 e)) (by rw [ht]; exact Int.natCast_nonneg _),
      agg_clamp_eq (val_main_v6 (F := Ideal) x1 (ix1 e)) r ht]
  have hRterm : ∀ e : Fin 1350000,
      extf .f32 (Host.gather gather_S100000x64_S1350000x1_S1350000x64_1_0_n_n_0_1_164 K (wrapCol (val_main_v3 (F := Ideal) x1))) bitsLt_bf16_f32 (ix2 e p)
        = K (ix2 (RowOps.clampRow 100000 (by decide) (agg_wrapWord (val_main_v3 (F := Ideal) x1 (ix1 e)))) p) := by
    intro e
    have hg := RowOps.gather_apply (N := 100000) (E := 1350000) (C := 64) (by decide)
      Cert.KernelIdeal.Facts₀.gather_S100000x64_S1350000x1_S1350000x64_1_0_n_n_0_1_164_wf K (wrapCol (val_main_v3 (F := Ideal) x1)) e p
    rw [agg_wrapCol_apply] at hg
    rw [extf_apply]
    exact hg
  rw [Finset.sum_congr rfl hLterm, Finset.sum_congr rfl (fun e _ => hRterm e)]
  exact Gcn.agg_sum _ _ _ _ (hd r).1 (hd r).2 (fun e _ => hK _ p)

/-- The first layer's aggregation: the reference's scatter of the doubly scaled gathered rows of `H` is the kernel
    side's aggregation of the once-scaled rows `K`, times the row's weight. -/
theorem agg_eq (H : FVec Ideal S100000x64 .f32) (K : FVec Ideal S100000x64 .bf16)
    (hK : ∀ (v : Fin 100000) (j : Fin 64), K (ix2 v j) = H (ix2 v j) * val_main_v14 (F := Ideal) x1 (ix1 v))
    (hd : ∀ v : Fin 100000, 0 ≤ val_main_v14 (F := Ideal) x1 (ix1 v) ∧ val_main_v14 (F := Ideal) x1 (ix1 v) ≠ ⊤)
    (r : Fin 100000) (p : Fin 64) :
    Host.scatterAdd Cert.ReferenceIdeal.scatter_S100000x64_S1350000x1_S1350000x64_1_0_0_1 (val_main_v48 (F := Ideal))
        (val_main_v49 (F := Ideal) x1)
        (mulf (Host.gather Cert.ReferenceIdeal.gather_S100000x64_S1350000x1_S1350000x64_1_0_n_n_0_1_164 H (val_main_v43 (F := Ideal) x1))
          (val_main_v46 (F := Ideal) x1)) (ix2 r p)
      = aggK (F := Ideal) (val_main_v3 (F := Ideal) x1) (val_main_v6 (F := Ideal) x1) K (ix2 r p) * val_main_v14 (F := Ideal) x1 (ix1 r) := by
  exact agg_of x1 _ _ _ _ agg_zeros1_apply (agg_dst1_apply x1) (agg_src1_apply x1) (agg_scale1_apply x1) H K hK hd r p

/-- The second layer's aggregation, over that layer's own copies of the zeros, the columns and the scale. -/
theorem agg_eq' (H : FVec Ideal S100000x64 .f32) (K : FVec Ideal S100000x64 .bf16)
    (hK : ∀ (v : Fin 100000) (j : Fin 64), K (ix2 v j) = H (ix2 v j) * val_main_v14 (F := Ideal) x1 (ix1 v))
    (hd : ∀ v : Fin 100000, 0 ≤ val_main_v14 (F := Ideal) x1 (ix1 v) ∧ val_main_v14 (F := Ideal) x1 (ix1 v) ≠ ⊤)
    (r : Fin 100000) (p : Fin 64) :
    Host.scatterAdd Cert.ReferenceIdeal.scatter_S100000x64_S1350000x1_S1350000x64_1_0_0_1 (val_main_v66 (F := Ideal))
        (val_main_v67 (F := Ideal) x1)
        (mulf (Host.gather Cert.ReferenceIdeal.gather_S100000x64_S1350000x1_S1350000x64_1_0_n_n_0_1_164 H (val_main_v61 (F := Ideal) x1))
          (val_main_v64 (F := Ideal) x1)) (ix2 r p)
      = aggK (F := Ideal) (val_main_v3 (F := Ideal) x1) (val_main_v6 (F := Ideal) x1) K (ix2 r p) * val_main_v14 (F := Ideal) x1 (ix1 r) := by
  exact agg_of x1 _ _ _ _ agg_zeros2_apply (agg_dst2_apply x1) (agg_src2_apply x1) (agg_scale2_apply x1) H K hK hd r p

end Cert.Bridge

end
-- ==== Proof.BridgeDense.lean ====
/-
  The second and third dense stages and the readout, kernel side against reference side, over the extended reals.

  Where the reference's aggregated row is the kernel side's row times the node's weight, the kernel's rescaling by that
  weight inside the stage gives the reference's row back; bias, clip and the contraction with the weights are then the
  same sums, and the second stage's closing scale is the factor the next aggregation expects. The readout adds, for
  each graph, the entries of the nodes numbered with it: the kernel side over a vector, the reference over a column.
-/
import proofs.«413525_j72473278153004_2_alg».proof.Proof.KTerm
import proofs.«413525_j72473278153004_2_alg».proof.Proof.RefRead
import proofs.«413525_j72473278153004_2_alg».proof.Proof.BridgeMath
import proofs.«413525_j72473278153004_2_alg».proof.Proof.LibRowOps
import proofs.«413525_j72473278153004_2_alg».proof.Proof.LibVecOps
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge

open Cert.KernelIdeal Cert.KernelIdeal.Facts₀ Cert.KernelIdeal.Facts Idealize.ShloMosaic Idealize.ShloMosaic.ValueIdx
open Cert.KernelIdeal.KTerm
open Cert.ReferenceIdeal.ReadP

variable (x0 : IVec S100000 32) (x1 : IVec S2x1250000 32) (x3 : IVec S100000 32)
  (x4 : FVec Ideal S28x64 .f32) (x5 : FVec Ideal S64x64 .f32) (x6 : FVec Ideal S64 .f32) (x7 : FVec Ideal S64x64 .f32)
  (x8 : FVec Ideal S64 .f32) (x9 : FVec Ideal S64x1 .f32) (x10 : FVec Ideal S1 .f32)

/-- The bias laid along every row, read at (v, k): its entry k. -/
theorem dense_bias6_apply (v : Fin 100000) (k : Fin 64) : val_main_v52 (F := Ideal) x6 (ix2 v k) = x6 (ix1 k) := by
  rw [val_main_v52_apply, val_main_v51_apply]
  exact congrArg x6 (funext fun a => Fin.ext (by match a with | ⟨0, _⟩ => rfl))

/-- The zero the clip compares with. -/
theorem dense_clip_zero (i : S100000x64.Idx) : val_main_call1_v0 (F := Ideal) i = 0 := by
  rw [val_main_call1_v0_apply, val_main_call1_cst_apply]
  exact Ideal.ofBits_zero_f32

/-- The third stage's bias laid along every row, read at (v, k): its entry k. -/
theorem dense_bias8_apply (v : Fin 100000) (k : Fin 64) : val_main_v70 (F := Ideal) x8 (ix2 v k) = x8 (ix1 k) := by
  rw [val_main_v70_apply, val_main_v69_apply]
  exact congrArg x8 (funext fun a => Fin.ext (by match a with | ⟨0, _⟩ => rfl))

/-- The last bias laid along the column, read at row v: its one entry. -/
theorem dense_bias10_apply (v : Fin 100000) : val_main_v74 (F := Ideal) x10 (ix2 v (0 : Fin 1)) = x10 (ix1 (0 : Fin 1)) := by
  rw [val_main_v74_apply, val_main_v73_apply]
  exact congrArg x10 (funext fun a => Fin.ext (by match a with | ⟨0, _⟩ => rfl))

/-- The column of node values as a vector, read at v: the column's row v. -/
theorem dense_col_as_vec_apply (y : FVec Ideal S100000x1 .f32) (e : Fin 100000) :
    shapeCast S100000 y shapeCasts_S100000x1_S100000 (ix1 e) = y (ix2 e (0 : Fin 1)) :=
  shapeCast_apply y shapeCasts_S100000x1_S100000 (ix1 e) (ix2 e (0 : Fin 1)) (by
    rw [Shape.rowMajor_val_two, Shape.rowMajor_val_one]
    show e.val * 1 + 0 = e.val
    omega)

/-- The zeros the kernel side's readout adds into. -/
theorem dense_zerosK_apply (q : Fin 2048) :
    broadcastInDim S2048 ![] bcast_S_S2048 (constant (F := Ideal) S_ .f32 0x00000000#32) (ix1 q) = 0 := by
  rw [broadcastInDim_apply _ bcast_S_S2048 (constant (F := Ideal) S_ .f32 0x00000000#32) (ix1 q) ix0 (fun a => a.elim0)]
  exact Ideal.ofBits_zero_f32

/-- The zeros the reference's readout adds into. -/
theorem dense_zerosR_apply (i : Cert.ReferenceIdeal.S2048x1.Idx) : val_main_v76 (F := Ideal) i = 0 := by
  rw [val_main_v76_apply, val_main_cst_14_apply]
  exact Ideal.ofBits_zero_f32

/-- The second stage: where the reference's first aggregation is the kernel side's times the weight, the kernel's second
    stage is the reference's second product times the node's weight. -/
theorem e2_eq (hdc : ∀ v : Fin 100000, dcol x1 (ix2 v 0) = val_main_v14 (F := Ideal) x1 (ix1 v))
    (h50 : ∀ (r : Fin 100000) (p : Fin 64),
      val_main_v50 (F := Ideal) x0 x1 x4 x5 (ix2 r p) = a1 x0 x1 x4 x5 (ix2 r p) * val_main_v14 (F := Ideal) x1 (ix1 r))
    (v : Fin 100000) (j : Fin 64) :
    e2 x0 x1 x4 x5 x6 x7 (ix2 v j) = val_main_v55 (F := Ideal) x0 x1 x4 x5 x6 x7 (ix2 v j) * val_main_v14 (F := Ideal) x1 (ix1 v) := by
  have hl : ∀ k : Fin 64, lidx_main_v55 (ix2 v j) k = ix2 v k := fun k =>
    funext fun a => Fin.ext (by match a with | ⟨0, _⟩ => rfl | ⟨1, _⟩ => rfl)
  have hr : ∀ k : Fin 64, ridx_main_v55 (ix2 v j) k = ix2 k j := fun k =>
    funext fun a => Fin.ext (by match a with | ⟨0, _⟩ => rfl | ⟨1, _⟩ => rfl)
  rw [val_main_v55_apply]
  show Gcn.reluRow (a1 x0 x1 x4 x5) (dcol x1) x6 x7 v j = _
  unfold Gcn.reluRow
  rw [hdc v]
  refine congrArg (fun s : EReal => s * val_main_v14 (F := Ideal) x1 (ix1 v)) (Finset.sum_congr rfl fun k _ => ?_)
  rw [hl k, hr k, val_main_v54_apply, val_main_v53_apply, dense_bias6_apply, dense_clip_zero, h50 v k, Ideal.maximumf_def, Ideal.addf_def]

/-- The third stage: where the reference's second aggregation is the kernel side's times the weight, the two columns agree. -/
theorem yk_eq (hdc : ∀ v : Fin 100000, dcol x1 (ix2 v 0) = val_main_v14 (F := Ideal) x1 (ix1 v))
    (h68 : ∀ (r : Fin 100000) (p : Fin 64),
      val_main_v68 (F := Ideal) x0 x1 x4 x5 x6 x7 (ix2 r p) = a2 x0 x1 x4 x5 x6 x7 (ix2 r p) * val_main_v14 (F := Ideal) x1 (ix1 r))
    (v : Fin 100000) :
    yk x0 x1 x4 x5 x6 x7 x8 x9 x10 (ix2 v 0) = val_main_v75 (F := Ideal) x0 x1 x4 x5 x6 x7 x8 x9 x10 (ix2 v 0) := by
  have hl : ∀ k : Fin 64, lidx_main_v72 (ix2 v (0 : Fin 1)) k = ix2 v k := fun k =>
    funext fun a => Fin.ext (by match a with | ⟨0, _⟩ => rfl | ⟨1, _⟩ => rfl)
  have hr : ∀ k : Fin 64, ridx_main_v72 (ix2 v (0 : Fin 1)) k = ix2 k (0 : Fin 1) := fun k =>
    funext fun a => Fin.ext (by match a with | ⟨0, _⟩ => rfl | ⟨1, _⟩ => rfl)
  rw [val_main_v75_apply, val_main_v72_apply, dense_bias10_apply, Ideal.addf_def]
  show Gcn.readRow (a2 x0 x1 x4 x5 x6 x7) (dcol x1) x8 x9 x10 v = _
  unfold Gcn.readRow
  rw [hdc v]
  refine congrArg (fun s : EReal => s + x10 (ix1 (0 : Fin 1))) (Finset.sum_congr rfl fun k _ => ?_)
  rw [hl k, hr k, val_main_v71_apply, dense_bias8_apply, h68 v k, Ideal.addf_def]

/-- The readout: where the two columns agree, the two results agree. -/
theorem out_eq
    (h75 : ∀ v : Fin 100000,
      yk x0 x1 x4 x5 x6 x7 x8 x9 x10 (ix2 v 0) = val_main_v75 (F := Ideal) x0 x1 x4 x5 x6 x7 x8 x9 x10 (ix2 v 0)) :
    out x0 x1 x3 x4 x5 x6 x7 x8 x9 x10 = val_main_v79 (F := Ideal) x0 x1 x3 x4 x5 x6 x7 x8 x9 x10 := by
  funext g
  obtain ⟨q, rfl⟩ : ∃ q : Fin 2048, g = ix1 q := ⟨g 0, eq_ix1 g⟩
  rw [val_main_v79_apply]
  have hi : idx_main_v79 (ix1 q) = ix2 q (0 : Fin 1) := funext fun a => Fin.ext (by
    match a with
    | ⟨0, _⟩ => exact Nat.div_one _
    | ⟨1, _⟩ => rfl)
  rw [hi]
  have hR := RowOps.scatterAdd_apply (N := 2048) (E := 100000) (C := 1) (φ := .f32)
    Cert.ReferenceIdeal.Facts₀.scatter_S2048x1_S100000x1_S100000x1_1_0_0_1_wf (val_main_v77 (F := Ideal) x3)
    (val_main_v76 (F := Ideal)) (val_main_v75 (F := Ideal) x0 x1 x4 x5 x6 x7 x8 x9 x10) q (0 : Fin 1)
  have hL := VecOps.scatterAdd_apply (N := 2048) (E := 100000) (φ := .f32)
    Cert.KernelIdeal.Facts₀.scatter_S2048_S100000x1_S100000_n_0_0_1_wf
    (broadcastInDim S100000x1 ![0] bcast_S100000_S100000x1_0 x3)
    (broadcastInDim S2048 ![] bcast_S_S2048 (constant (F := Ideal) S_ .f32 0x00000000#32))
    (shapeCast S100000 (yk x0 x1 x4 x5 x6 x7 x8 x9 x10) shapeCasts_S100000x1_S100000) q
  refine hL.trans (Eq.trans ?_ hR.symm)
  rw [dense_zerosK_apply, dense_zerosR_apply]
  have hidx : val_main_v77 (F := Ideal) x3 = broadcastInDim S100000x1 ![0] bcast_S100000_S100000x1_0 x3 := rfl
  rw [hidx]
  refine congrArg (fun s : EReal => 0 + s) (Finset.sum_congr rfl fun e _ => ?_)
  rw [dense_col_as_vec_apply, h75 e]

end Cert.Bridge

end
-- ==== Proof.Bridge.lean ====
/-
  The two programs compute the same function: the kernel side's composed term is the reference's result, for
  categories in range, over the extended reals.

  Stage by stage: the first dense stage is the reference's first product times the node's weight; so the reference's
  first aggregation is the kernel side's times the weight; so the second dense stage is the reference's second product
  times the weight; so the second aggregations agree in the same way; so the third dense stages agree; so the
  readouts agree.
-/
import proofs.«413525_j72473278153004_2_alg».proof.Proof.BridgeEmbed
import proofs.«413525_j72473278153004_2_alg».proof.Proof.BridgeAgg
import proofs.«413525_j72473278153004_2_alg».proof.Proof.BridgeDense

noncomputable section

namespace Cert.Bridge

open Cert.KernelIdeal Idealize.ShloMosaic Idealize.ShloMosaic.ValueIdx
open Cert.KernelIdeal.KTerm
open Cert.ReferenceIdeal.ReadP

variable (x0 : IVec S100000 32) (x1 : IVec S2x1250000 32) (x3 : IVec S100000 32)
  (x4 : FVec Ideal S28x64 .f32) (x5 : FVec Ideal S64x64 .f32) (x6 : FVec Ideal S64 .f32) (x7 : FVec Ideal S64x64 .f32)
  (x8 : FVec Ideal S64 .f32) (x9 : FVec Ideal S64x1 .f32) (x10 : FVec Ideal S1 .f32)

/-- For categories in range the kernel side's result is the reference's result. -/
theorem result_eq (hx : ∀ v : Fin 100000, 0 ≤ (x0 (ix1 v)).toInt ∧ (x0 (ix1 v)).toInt < 28) :
    out x0 x1 x3 x4 x5 x6 x7 x8 x9 x10 = val_main_v79 (F := Ideal) x0 x1 x3 x4 x5 x6 x7 x8 x9 x10 := by
  have hd := dinv_ok x1
  have hdc := dcol_apply x1
  have h50 : ∀ (r : Fin 100000) (p : Fin 64),
      val_main_v50 (F := Ideal) x0 x1 x4 x5 (ix2 r p) = a1 x0 x1 x4 x5 (ix2 r p) * val_main_v14 (F := Ideal) x1 (ix1 r) :=
    fun r p => agg_eq x1 (val_main_v37 (F := Ideal) x0 x4 x5) (e1 x0 x1 x4 x5) (e1_eq x0 x1 x4 x5 hx) hd r p
  have h55 := e2_eq x0 x1 x4 x5 x6 x7 hdc h50
  have h68 : ∀ (r : Fin 100000) (p : Fin 64),
      val_main_v68 (F := Ideal) x0 x1 x4 x5 x6 x7 (ix2 r p)
        = a2 x0 x1 x4 x5 x6 x7 (ix2 r p) * val_main_v14 (F := Ideal) x1 (ix1 r) :=
    fun r p => agg_eq' x1 (val_main_v55 (F := Ideal) x0 x1 x4 x5 x6 x7) (e2 x0 x1 x4 x5 x6 x7) h55 hd r p
  have h75 := yk_eq x0 x1 x4 x5 x6 x7 x8 x9 x10 hdc h68
  exact out_eq x0 x1 x3 x4 x5 x6 x7 x8 x9 x10 h75

end Cert.Bridge

end
-- ==== Proof.PreRange.lean ====
/-
  What the precondition says about the category input: every entry is one of the 28 categories.

  The printed precondition is a conjunction of `all`-reductions; its last conjunct reduces, over the 100000 nodes,
  the conjunction of `x ≥ 0` and `x < 28` read signed. If the whole is one, that conjunct is one, so the reduced
  mask is one at every node, so both comparisons hold at every node.
-/
import proofs.«413525_j72473278153004_2_alg».proof.Pre_finite_inputs
import proofs.«413525_j72473278153004_2_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx
import Idealize.ShloMosaic.Lib.Affine

noncomputable section

namespace Cert.PreRange

open Idealize.ShloMosaic Idealize.ShloMosaic.ValueIdx Cert.Pre_finite_inputs Cert.Pre_finite_inputs.Facts

/-- A shape of rank zero has one index. -/
instance : Subsingleton S_.Idx := ⟨fun a b => funext fun d => d.elim0⟩

/-- If the precondition holds of the argument arrays, every category is at least 0 and below 28, read signed. -/
theorem x_range (a0 : IVec S100000 32) (a1 : IVec S2x1250000 32) (a2 : IVec S1250000 32) (a3 : IVec S100000 32)
    (a4 : FVec Ideal S28x64 .f32) (a5 : FVec Ideal S64x64 .f32) (a6 : FVec Ideal S64 .f32) (a7 : FVec Ideal S64x64 .f32)
    (a8 : FVec Ideal S64 .f32) (a9 : FVec Ideal S64x1 .f32) (a10 : FVec Ideal S1 .f32)
    (h : fn (F := Ideal) a0 a1 a2 a3 a4 a5 a6 a7 a8 a9 a10 = fun _ => 1#1) (v : Fin 100000) :
    0 ≤ (a0 (ix1 v)).toInt ∧ (a0 (ix1 v)).toInt < 28 := by
  have h0 := congrFun h ix0
  dsimp only [fn, fn_part1, fn_part2] at h0
  have h39 := (IntOp.andi_eq_one.mp h0).2
  have hv := Host.reduce_andi_all _ _ _ _ ix0 h39 (ix1 v)
  obtain ⟨hge, hlt⟩ := IntOp.andi_eq_one.mp hv
  have hge' : IntOp.cmpi .sge (a0 (ix1 v)) 0#32 = 1#1 := hge
  have hlt' : IntOp.cmpi .slt (a0 (ix1 v)) 28#32 = 1#1 := hlt
  unfold IntOp.cmpi at hge' hlt'
  rw [StableHlo.Predicate.ofBool_eq_one_iff] at hge' hlt'
  simp only [BitVec.sle, BitVec.slt, decide_eq_true_eq] at hge' hlt'
  have z : (0#32 : BitVec 32).toInt = 0 := by decide
  have t : (28#32 : BitVec 32).toInt = 28 := by decide
  rw [z] at hge'; rw [t] at hlt'
  exact ⟨hge', hlt'⟩

end Cert.PreRange

end
-- ==== Proof.lean ====
/-
  A two-layer graph convolution with a sum readout, as three dense Pallas kernels among host gathers and scatter-adds,
  against its plain reference, over the extended reals, for category inputs in `[0, 28)`.

  The reference normalises every edge message by the product of the source's and the target's weights (the inverse
  square roots of their degrees) and looks each node's embedding up by a gather. The kernel program scales by the
  weight per NODE instead, once before each edge gather and once after each scatter-add, and looks the embedding up by a
  one-hot product with the table already multiplied by the first weights. The two agree because a node's weight is a
  nonnegative finite number, so it distributes over the scatter-add's sum whatever extended reals the summands are
  (BridgeMath, BridgeAgg); because an edge that lands on row `r` has target `r` (BridgeAgg); because a one-hot sum
  picks the row the category names, which needs the category in range (BridgeEmbed): outside `[0, 28)` the
  reference's gather wraps and clamps to a table row while the one-hot product is zero; and because each kernel's
  output array is its row-local stage of its input arrays, block by block (Region0/1/2, KValue). Every change of float
  format is the identity here and a product into a zero accumulator is the plain sum, so nothing else differs.
  The frames are the generated ones; the reference's frame is its run with the result dropped.
-/
import proofs.«413525_j72473278153004_2_alg».proof.Defs
import proofs.«413525_j72473278153004_2_alg».proof.Proof.Gen.Kernel
import proofs.«413525_j72473278153004_2_alg».proof.Proof.Gen.Kernel.Skeleton
import proofs.«413525_j72473278153004_2_alg».proof.Proof.Gen.Kernel.Launch
import proofs.«413525_j72473278153004_2_alg».proof.Proof.Gen.Kernel.Points
import proofs.«413525_j72473278153004_2_alg».proof.Proof.Gen.Kernel.Frame
import proofs.«413525_j72473278153004_2_alg».proof.Proof.Gen.KernelIdeal
import proofs.«413525_j72473278153004_2_alg».proof.Proof.Gen.KernelIdeal.Skeleton
import proofs.«413525_j72473278153004_2_alg».proof.Proof.Gen.KernelIdeal.Launch
import proofs.«413525_j72473278153004_2_alg».proof.Proof.Gen.KernelIdeal.Points
import proofs.«413525_j72473278153004_2_alg».proof.Proof.Gen.KernelIdeal.Frame
import proofs.«413525_j72473278153004_2_alg».proof.Proof.Gen.ReferenceIdeal
import proofs.«413525_j72473278153004_2_alg».proof.Proof.Gen.Pre_finite_inputs
import proofs.«413525_j72473278153004_2_alg».proof.Proof.RefRun
import proofs.«413525_j72473278153004_2_alg».proof.Proof.RefRead
import proofs.«413525_j72473278153004_2_alg».proof.Proof.Spec
import proofs.«413525_j72473278153004_2_alg».proof.Proof.KRun
import proofs.«413525_j72473278153004_2_alg».proof.Proof.KValue
import proofs.«413525_j72473278153004_2_alg».proof.Proof.Bridge
import proofs.«413525_j72473278153004_2_alg».proof.Proof.PreRange
import Idealize.ShloMosaic.Adequacy
import Idealize.ShloMosaic.Init

noncomputable section

namespace Cert.Proof

open Idealize.ShloMosaic Idealize.SL.Sem

/-- The kernel program runs and keeps its arguments, at the word level. -/
theorem frame_k : Cert.frame_Kernel := fun m ρ _ => Cert.Kernel.Gen.frame m ρ

/-- The kernel program runs and keeps its arguments, over the extended reals. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The two programs, from memories agreeing on the arguments, end with the same result: the kernel side's result
    buffer holds the composed term of its arguments, the reference's holds its last stage, and for categories in range,
    which the precondition gives, the two are one function. -/
theorem algebraic : Cert.algebraic_KernelIdeal_ReferenceIdeal := by
  intro m ρ m' ρ' hpre hagree
  refine ⟨fun c => Cert.KernelIdeal.KTerm.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KValue.W9_v46 m ρ c), (h c).2⟩)
      (Cert.KernelIdeal.ValueRun.run_value (F := Ideal) m ρ)
  · refine (θ_run Cert.ReferenceIdeal.defs _ _).mono (fun r h c => ⟨(h c).1.trans ?_, (h c).2⟩)
      (Cert.ReferenceIdeal.RunP.run (F := Ideal) m' ρ')
    obtain ⟨h0, h1, h2, h3, h4, h5, h6, h7, h8, h9, h10⟩ := hagree c
    rw [Cert.ReferenceIdeal.ReadP.val_main_v79_eq m' c, h0, h1, h3, h4, h5, h6, h7, h8, h9, h10]
    exact (Cert.Bridge.result_eq _ _ _ _ _ _ _ _ _ _
      (Cert.PreRange.x_range (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
